-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩
abbrev S2000 : Shape := ⟨1, ![2000]⟩
abbrev S2000x1 : Shape := ⟨2, ![2000, 1]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelHost.lean ====
/-
  The host stretches of the kernel's program, read: what the buffers hold when each of the two kernel regions is entered.

  Both programs build, on the host, the MEAN OF THE NEIGHBOURS' FEATURES of every node: the edge list's first row
  (sources, a negative index wrapped by the node count) gathers rows of the feature array, its second row (targets)
  scatter-adds them onto zeros, and the sum is divided by the target's in-degree clipped below at one. That chain is
  named here once per feature width (`neighbourMean128`, `neighbourMean256`) and kept folded afterwards: the two
  programs apply the same chain, so nothing about its inside is needed beyond realness.
-/
import proofs.«110141_j29618094473883_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The edges' source nodes: row 0 of the edge list as a flat vector. -/
def srcVec (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' target nodes: row 1 of the edge list as a flat vector. -/
def dstVec (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The sources as a column of start indices, a negative one wrapped by the node count. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The targets as a column of scatter indices. -/
def dstCol (d : (⟨S800000, .i32⟩ : BufTy).Contents (Elt F)) : (⟨S800000x1, .i32⟩ : BufTy).Contents (Elt F) :=
  broadcastInDim S800000x1 ![0] bcast_S800000_S800000x1_0 d

/-- Every node's in-degree (ones scatter-added onto zeros at the targets), clipped below at one. -/
def degree (d : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstCol d)
      (broadcastInDim S800000 ![] bcast_S_S800000 (constant S_ .f32 0x3F800000#32)))
    (broadcastInDim S50000 ![] bcast_S_S50000 (constant S_ .f32 0x3F800000#32))

/-- The mean of the neighbours' rows of a 128-wide feature array. -/
def neighbourMean128 (x : (⟨S50000x128, .f32⟩ : BufTy).Contents (Elt F)) (s d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32)) (dstCol d)
      (Host.gather gather_S50000x128_S800000x1_S800000x128_1_0_n_n_0_1_1128 x (srcCol s)))
    (broadcastInDim S50000x128 ![0, 1] bcast_S50000x1_S50000x128_0_1
      (broadcastInDim S50000x1 ![0] bcast_S50000_S50000x1_0 (degree d)))

/-- The mean of the neighbours' rows of a 256-wide feature array. -/
def neighbourMean256 (x : (⟨S50000x256, .f32⟩ : BufTy).Contents (Elt F)) (s d : (⟨S800000, .i32⟩ : BufTy).Contents (Elt F)) :
    (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32)) (dstCol d)
      (Host.gather gather_S50000x256_S800000x1_S800000x256_1_0_n_n_0_1_1256 x (srcCol s)))
    (broadcastInDim S50000x256 ![0, 1] bcast_S50000x1_S50000x256_0_1
      (broadcastInDim S50000x1 ![0] bcast_S50000_S50000x1_0 (degree d)))

variable (m : (ℓ : Loc nD τ sig) → Buf (Elt F) ℓ) (ρ : Dev nD → PrngReg)

/-! ## Region 0's entry: after the first host stretch -/

theorem entry0_mean (c : Dev nD) :
    V1 m ρ c main_v22 = neighbourMean128 (m ((c : Thread nD τ).loc main_arg0))
      (srcVec (m ((c : Thread nD τ).loc main_arg1))) (dstVec (m ((c : Thread nD τ).loc main_arg1))) := by
  show StableHlo.after hostOps0 (W0 m ρ c) (Proc.devRef .tc main_v22) = _
  after_results_simp
  rfl

theorem entry0_bias (c : Dev nD) :
    V1 m ρ c main_v23 = shapeCast _ (m ((c : Thread nD τ).loc main_arg4)) shapeCasts_S256_S1x256 := by
  show StableHlo.after hostOps0 (W0 m ρ c) (Proc.devRef .tc main_v23) = _
  after_results_simp
  rfl

theorem entry0_arg0 (c : Dev nD) : V1 m ρ c main_arg0 = m ((c : Thread nD τ).loc main_arg0) := by
  show StableHlo.after hostOps0 (W0 m ρ c) (Proc.devRef .tc main_arg0) = _
  after_results_simp

theorem entry0_arg2 (c : Dev nD) : V1 m ρ c main_arg2 = m ((c : Thread nD τ).loc main_arg2) := by
  show StableHlo.after hostOps0 (W0 m ρ c) (Proc.devRef .tc main_arg2) = _
  after_results_simp

theorem entry0_arg3 (c : Dev nD) : V1 m ρ c main_arg3 = m ((c : Thread nD τ).loc main_arg3) := by
  show StableHlo.after hostOps0 (W0 m ρ c) (Proc.devRef .tc main_arg3) = _
  after_results_simp

/-! ## What region 0 leaves of the buffers the second stretch reads -/

theorem exit0_src (c : Dev nD) : W2 m ρ c (Proc.devRef .tc main_v1) = srcVec (m ((c : Thread nD τ).loc main_arg1)) :=
  (W2_of_ne m ρ c main_v1 (by decide)).trans (by
    show StableHlo.after hostOps0 (W0 m ρ c) (Proc.devRef .tc main_v1) = _
    after_results_simp
    rfl)

theorem exit0_dst (c : Dev nD) : W2 m ρ c (Proc.devRef .tc main_v3) = dstVec (m ((c : Thread nD τ).loc main_arg1)) :=
  (W2_of_ne m ρ c main_v3 (by decide)).trans (by
    show StableHlo.after hostOps0 (W0 m ρ c) (Proc.devRef .tc main_v3) = _
    after_results_simp
    rfl)

theorem exit0_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp)

theorem exit0_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)

theorem exit0_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp)

/-! ## Region 1's entry: after the second host stretch -/

theorem entry1_mean (c : Dev nD) :
    V3 m ρ c main_v43 = neighbourMean256 (W2 m ρ c (Proc.devRef .tc main_v24))
      (srcVec (m ((c : Thread nD τ).loc main_arg1))) (dstVec (m ((c : Thread nD τ).loc main_arg1))) := by
  show StableHlo.after hostOps1 (W2 m ρ c) (Proc.devRef .tc main_v43) = _
  after_results_simp
  rw [exit0_src, exit0_dst]
  rfl

theorem entry1_hidden (c : Dev nD) : V3 m ρ c main_v24 = W2 m ρ c (Proc.devRef .tc main_v24) := by
  show StableHlo.after hostOps1 (W2 m ρ c) (Proc.devRef .tc main_v24) = _
  after_results_simp

theorem entry1_bias (c : Dev nD) :
    V3 m ρ c main_v44 = shapeCast _ (m ((c : Thread nD τ).loc main_arg7)) shapeCasts_S128_S1x128 := by
  show StableHlo.after hostOps1 (W2 m ρ c) (Proc.devRef .tc main_v44) = _
  after_results_simp
  rw [exit0_arg7]
  rfl

theorem entry1_arg5 (c : Dev nD) : V3 m ρ c main_arg5 = m ((c : Thread nD τ).loc main_arg5) := by
  show StableHlo.after hostOps1 (W2 m ρ c) (Proc.devRef .tc main_arg5) = _
  after_results_simp
  exact exit0_arg5 m ρ c

theorem entry1_arg6 (c : Dev nD) : V3 m ρ c main_arg6 = m ((c : Thread nD τ).loc main_arg6) := by
  show StableHlo.after hostOps1 (W2 m ρ c) (Proc.devRef .tc main_arg6) = _
  after_results_simp
  exact exit0_arg6 m ρ c

end Cert.KernelIdeal.Hand

end
-- ==== Proof.Spec.lean ====
/-
  The mathematics of the two-layer mean-aggregating graph network, index by index on the extended reals.

  One layer, before its activation, at node `p` and output channel `q`:
      pre p q = Σ_k a[p,k]·wl[k,q] + Σ_k x[p,k]·wr[k,q] + b[0,q]
  where `a` holds the neighbour means, `x` the nodes' own features, `wl`, `wr` the two weight matrices and
  `b` the bias row. The first layer ends in `max · 0`; the second in a row-wise log-softmax, which the two programs
  associate differently: `z − (M + log S)` against `(z − M) − log S`, with `M` the row's maximum and
  `S = Σ_j exp (z_j − M)`. The two agree as soon as `M` is a real number (`sub_add_eq_sub_sub_of_real`), and
  `M` is real when every `z_j` is (`rowMax_isReal`).
-/
import Idealize.ShloMosaic.PureOps.Ideal
import Idealize.ShloMosaic.Lib.ValueIdx

noncomputable section

open scoped BigOperators

namespace Cert.Sage

open Idealize.ShloMosaic Idealize.ShloMosaic.ValueIdx

/-- A rank-2 array of extended reals. -/
abbrev Mat (r c : Nat) : Type := (⟨2, ![r, c]⟩ : Shape).Idx → EReal

/-- One layer before its activation, at node `p` and channel `q`. -/
def pre {n ci co : Nat} (a x : Mat n ci) (wl wr : Mat ci co) (b : Mat 1 co) (p : Fin n) (q : Fin co) : EReal :=
  (∑ k : Fin ci, a (ix2 p k) * wl (ix2 k q)) + (∑ k : Fin ci, x (ix2 p k) * wr (ix2 k q)) + b (ix2 (0 : Fin 1) q)

/-- The first layer's result: the pre-activation clipped below at the zero word. -/
def hidden {n ci co : Nat} (a x : Mat n ci) (wl wr : Mat ci co) (b : Mat 1 co) : Mat n co :=
  fun i => max (pre a x wl wr b (i 0) (i 1)) (Ideal.ofBits .f32 0x00000000#32)

/-- A row's maximum, folded from the word of minus infinity. -/
def rowMax {co : Nat} (z : Fin co → EReal) : EReal :=
  (Finset.univ : Finset (Fin co)).fold max (Ideal.ofBits .f32 0xFF800000#32) z

/-- The sum of the exponentials of a row shifted by its maximum. -/
def rowExpSum {co : Nat} (z : Fin co → EReal) : EReal := ∑ j : Fin co, Ideal.exp (z j - rowMax z)

/-- Log-softmax as the kernel associates it: the entry minus (maximum plus log-sum). -/
def logSoftmaxJoined {co : Nat} (z : Fin co → EReal) (q : Fin co) : EReal :=
  z q - (rowMax z + Ideal.log (rowExpSum z))

/-- Log-softmax as the reference associates it: the shifted entry minus the log-sum. -/
def logSoftmaxShifted {co : Nat} (z : Fin co → EReal) (q : Fin co) : EReal :=
  (z q - rowMax z) - Ideal.log (rowExpSum z)

/-- The second layer's result in the kernel's association. -/
def outJoined {n ci co : Nat} (a x : Mat n ci) (wl wr : Mat ci co) (b : Mat 1 co) : Mat n co :=
  fun i => logSoftmaxJoined (fun j => pre a x wl wr b (i 0) j) (i 1)

/-- The second layer's result in the reference's association. -/
def outShifted {n ci co : Nat} (a x : Mat n ci) (wl wr : Mat ci co) (b : Mat 1 co) : Mat n co :=
  fun i => logSoftmaxShifted (fun j => pre a x wl wr b (i 0) j) (i 1)

end Cert.Sage

end
-- ==== Proof.Region0.lean ====
/-
  The first layer on the kernel's side: the array its region leaves.

  The region walks 25 blocks of 2000 rows. At each it reads the block of neighbour means `a` and of the nodes' own
  features `x` (2000 × 128 each), the two whole weight matrices `wl`, `wr` (128 × 256) and the bias row `b`
  (1 × 256), and writes the block
      max (Σ_k a[p,k]·wl[k,q] + Σ_k x[p,k]·wr[k,q] + b[0,q]) 0
  of 2000 × 256. Three steps: the body's result at one entry of a block is that expression of the five blocks
  (the contraction read as a sum over its one shared axis, the bias row spread over the rows, the narrowing of the
  operands the identity on extended reals); row `p` of the block at point `t` is row `2000·t + p` of the arrays,
  and the weights' and the bias' one block is the whole array, so what point `t` writes back is block `t` of ONE
  function of the five arrays, `Cert.Sage.hidden`; and the 25 blocks fill the 50000 rows (row `r` is in block
  `r / 2000`), so the array ends holding that function everywhere.
-/
import proofs.«110141_j29618094473883_1_alg».proof.Proof.Spec
import proofs.«110141_j29618094473883_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The first layer's contraction: a row of the left operand against a column of the right -/

/-- The contraction's output row is the left operand's row. -/
theorem dotA_lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- The left operand's column is the summation position. -/
theorem dotA_lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q

/-- The right operand's row is the summation position. -/
theorem dotA_rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q

/-- The contraction's output column is the right operand's column. -/
theorem dotA_rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The product into the zero accumulator, at row `p` and column `q`: the sum over the 128 shared positions. -/
theorem matmulA_apply (a : FVec Ideal S2000x128 .bf16) (w : FVec Ideal S128x256 .bf16) (p : Fin 2000) (q : Fin 256) :
    matmul dot_S2000x128_S128x256_S2000x256_1_0_0_1_n_n none a w (constant (F := Ideal) S2000x256 .f32 0x00000000#32) (ix2 p q)
      = ∑ k : Fin 128, a (ix2 p k) * w (ix2 k q) := by
  simp only [matmul]
  rw [Ideal.matmul_constant_zero_apply,
    ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q)
      ((ValueIdx.contrEquiv1 dot_S2000x128_S128x256_S2000x256_1_0_0_1_n_n 128 rfl rfl).symm k) = ix2 p k :=
    funext fun d => Fin.ext (by
      match d with
      | ⟨0, _⟩ => exact dotA_lhs_0 _ _
      | ⟨1, _⟩ => exact (dotA_lhs_1 _ _).trans hk)
  have er : dot_S2000x128_S128x256_S2000x256_1_0_0_1_n_n.rhsIdx (ix2 p q)
      ((ValueIdx.contrEquiv1 dot_S2000x128_S128x256_S2000x256_1_0_0_1_n_n 128 rfl rfl).symm k) = ix2 k q :=
    funext fun d => Fin.ext (by
      match d with
      | ⟨0, _⟩ => exact (dotA_rhs_0 _ _).trans hk
      | ⟨1, _⟩ => exact dotA_rhs_1 _ _)
  rw [el, er]

/-! ## The body's result at one entry of its block -/

/-- The bias row spread over the block's rows reads the row's entry in the same column. -/
theorem biasA_apply (b : Vec Ideal S1x256 .f32) (p : Fin 2000) (q : Fin 256) :
    broadcastTo S2000x256 b broadcasts_S1x256_S2000x256 (ix2 p q) = b (ix2 (0 : Fin 1) q) :=
  broadcastTo_apply b broadcasts_S1x256_S2000x256 (ix2 p q) (ix2 (0 : Fin 1) q) (fun d => match d with
    | ⟨0, _⟩ => by show (0 : Nat) = if (1 : Nat) = 1 then 0 else _; rw [if_pos rfl]
    | ⟨1, _⟩ => by show q.val = if (256 : Nat) = 1 then 0 else q.val; rw [if_neg (by decide)])

/-- What the body computes at row `p`, column `q` of its block: the layer's pre-activation of the five loaded
    blocks there, clipped below at the zero word. -/
theorem payA_apply (x0 x1 : Vec Ideal S2000x128 .f32) (x2 x3 : Vec Ideal S128x256 .f32) (x4 : Vec Ideal S1x256 .f32)
    (p : Fin 2000) (q : Fin 256) :
    Gen.k0_pay1 (F := Ideal) x0 x1 x2 x3 x4 (ix2 p q)
      = max (Cert.Sage.pre (n := 2000) (ci := 128) (co := 256) x0 x1 x2 x3 x4 p q) (Ideal.ofBits .f32 0x00000000#32) := by
  unfold Gen.k0_pay1 Cert.Sage.pre
  rw [maximumf_apply, addf_apply, addf_apply, matmulA_apply, matmulA_apply, shapeCast_self, shapeCast_self, biasA_apply]
  rfl

/-- The body's result at any entry of its block. -/
theorem payA_at (x0 x1 : Vec Ideal S2000x128 .f32) (x2 x3 : Vec Ideal S128x256 .f32) (x4 : Vec Ideal S1x256 .f32)
    (j : S2000x256.Idx) :
    Gen.k0_pay1 (F := Ideal) x0 x1 x2 x3 x4 j
      = max (Cert.Sage.pre (n := 2000) (ci := 128) (co := 256) x0 x1 x2 x3 x4 (j 0) (j 1)) (Ideal.ofBits .f32 0x00000000#32) :=
  (congrArg (Gen.k0_pay1 (F := Ideal) x0 x1 x2 x3 x4) (eq_ix2 j)).trans (payA_apply x0 x1 x2 x3 x4 (j 0) (j 1))

/-! ## The blocks the body reads, as parts of the arrays -/

section Blocks

variable (V : (c : Dev nD) → (b : Ref sig .tc) → Buf (Elt Ideal) ((c : Thread nD τ).loc b))

/-- The zero offsets of a whole-buffer access, as the constant function. -/
theorem zerosA : (![0, 0] : Fin 2 → Nat) = fun _ => 0 :=
  funext fun a => match a with | ⟨0, _⟩ => rfl | ⟨1, _⟩ => rfl

/-- The block indices over the 25 grid points: the two feature windows and the output move down one block of rows
    per point and never sideways; the two weight matrices and the bias row stay at their one block. -/
theorem idxA : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `y 0` of the neighbour-mean block at point `t` is row `2000 t + y 0` of the array. -/
theorem readA_0 (c : Dev nD) (t : Fin cfg0.N) (y : S2000x128.Idx) (i : S50000x128.Idx)
    (h0 : (i 0).val = t.val * 2000 + (y 0).val) (h1 : (i 1).val = (y 1).val) :
    iblk0 (F := Ideal) V c 0 t y = V c main_v22 i := by
  obtain ⟨e0, e1, -⟩ := idxA t
  show V c main_v22 (((cfg0.win 0).blk t).view.emb y) = V c main_v22 i
  refine congrArg (V c main_v22) (funext fun a => Fin.ext ?_)
  match a with
  | ⟨0, _⟩ =>
    show win0_0.index t (0 : Fin 2) * 2000 + 1 * (y 0).val = (i 0).val
    omega
  | ⟨1, _⟩ =>
    show win0_0.index t (1 : Fin 2) * 128 + 1 * (y 1).val = (i 1).val
    omega

/-- The same for the block of the nodes' own features. -/
theorem readA_1 (c : Dev nD) (t : Fin cfg0.N) (y : S2000x128.Idx) (i : S50000x128.Idx)
    (h0 : (i 0).val = t.val * 2000 + (y 0).val) (h1 : (i 1).val = (y 1).val) :
    iblk0 (F := Ideal) V c 1 t y = V c main_arg0 i := by
  obtain ⟨-, -, e0, e1, -⟩ := idxA t
  show V c main_arg0 (((cfg0.win 1).blk t).view.emb y) = V c main_arg0 i
  refine congrArg (V c main_arg0) (funext fun a => Fin.ext ?_)
  match a with
  | ⟨0, _⟩ =>
    show win0_1.index t (0 : Fin 2) * 2000 + 1 * (y 0).val = (i 0).val
    omega
  | ⟨1, _⟩ =>
    show win0_1.index t (1 : Fin 2) * 128 + 1 * (y 1).val = (i 1).val
    omega

/-- The left weight matrix's one block is the matrix. -/
theorem readA_2 (c : Dev nD) (t : Fin cfg0.N) (y : S128x256.Idx) :
    iblk0 (F := Ideal) V c 2 t y = V c main_arg2 y := by
  obtain ⟨-, -, -, -, e0, e1, -⟩ := idxA t
  show V c main_arg2 (((cfg0.win 2).blk t).view.emb y) = V c main_arg2 y
  refine congrArg (V c main_arg2) (funext fun a => Fin.ext ?_)
  match a with
  | ⟨0, _⟩ =>
    show win0_2.index t (0 : Fin 2) * 128 + 1 * (y 0).val = (y 0).val
    omega
  | ⟨1, _⟩ =>
    show win0_2.index t (1 : Fin 2) * 256 + 1 * (y 1).val = (y 1).val
    omega

/-- The right weight matrix's one block is the matrix. -/
theorem readA_3 (c : Dev nD) (t : Fin cfg0.N) (y : S128x256.Idx) :
    iblk0 (F := Ideal) V c 3 t y = V c main_arg3 y := by
  obtain ⟨-, -, -, -, -, -, e0, e1, -⟩ := idxA t
  show V c main_arg3 (((cfg0.win 3).blk t).view.emb y) = V c main_arg3 y
  refine congrArg (V c main_arg3) (funext fun a => Fin.ext ?_)
  match a with
  | ⟨0, _⟩ =>
    show win0_3.index t (0 : Fin 2) * 128 + 1 * (y 0).val = (y 0).val
    omega
  | ⟨1, _⟩ =>
    show win0_3.index t (1 : Fin 2) * 256 + 1 * (y 1).val = (y 1).val
    omega

/-- The bias row's one block is the row. -/
theorem readA_4 (c : Dev nD) (t : Fin cfg0.N) (y : S1x256.Idx) :
    iblk0 (F := Ideal) V c 4 t y = V c main_v23 y := by
  obtain ⟨-, -, -, -, -, -, -, -, e0, e1, -⟩ := idxA t
  show V c main_v23 (((cfg0.win 4).blk t).view.emb y) = V c main_v23 y
  refine congrArg (V c main_v23) (funext fun a => Fin.ext ?_)
  match a with
  | ⟨0, _⟩ =>
    show win0_4.index t (0 : Fin 2) * 1 + 1 * (y 0).val = (y 0).val
    omega
  | ⟨1, _⟩ =>
    show win0_4.index t (1 : Fin 2) * 256 + 1 * (y 1).val = (y 1).val
    omega

/-- The pre-activation of the five blocks at point `t`, at the block's row `p`, is the pre-activation of the five
    arrays at the row `r = 2000 t + p`. -/
theorem preA_blocks (c : Dev nD) (t : Fin cfg0.N) (p : Fin 2000) (q : Fin 256) (r : Fin 50000)
    (hr : r.val = t.val * 2000 + p.val) :
    Cert.Sage.pre (n := 2000) (ci := 128) (co := 256) (iblk0 (F := Ideal) V c 0 t) (iblk0 (F := Ideal) V c 1 t)
        (iblk0 (F := Ideal) V c 2 t) (iblk0 (F := Ideal) V c 3 t) (iblk0 (F := Ideal) V c 4 t) p q
      = Cert.Sage.pre (n := 50000) (ci := 128) (co := 256) (V c main_v22) (V c main_arg0) (V c main_arg2) (V c main_arg3)
        (V c main_v23) r q := by
  unfold Cert.Sage.pre
  have e0 : ∀ k : Fin 128, iblk0 (F := Ideal) V c 0 t (ix2 p k) = V c main_v22 (ix2 r k) :=
    fun k => readA_0 V c t (ix2 p k) (ix2 r k) hr rfl
  have e1 : ∀ k : Fin 128, iblk0 (F := Ideal) V c 1 t (ix2 p k) = V c main_arg0 (ix2 r k) :=
    fun k => readA_1 V c t (ix2 p k) (ix2 r k) hr rfl
  have e2 : ∀ k : Fin 128, iblk0 (F := Ideal) V c 2 t (ix2 k q) = V c main_arg2 (ix2 k q) :=
    fun k => readA_2 V c t (ix2 k q)
  have e3 : ∀ k : Fin 128, iblk0 (F := Ideal) V c 3 t (ix2 k q) = V c main_arg3 (ix2 k q) :=
    fun k => readA_3 V c t (ix2 k q)
  have e4 : iblk0 (F := Ideal) V c 4 t (ix2 (0 : Fin 1) q) = V c main_v23 (ix2 (0 : Fin 1) q) :=
    readA_4 V c t (ix2 (0 : Fin 1) q)
  simp only [e0, e1, e2, e3, e4]

/-! ## What each point writes back, and the array after the last point -/

/-- What point `t` writes back is block `t` of the first layer's result on the arrays as the region finds them. -/
theorem flushedA (c : Dev nD) (t : Fin cfg0.N) :
    (dat0 (F := Ideal) V c).flushed 5 t
      = ((cfg0.win 5).blk t).view.read (Elt Ideal) (Cert.Sage.hidden (n := 50000) (ci := 128) (co := 256)
          (V c main_v22) (V c main_arg0) (V c main_arg2) (V c main_arg3) (V c main_v23)) := by
  show (cfg0.win 5).cut (grid0.coords t) ((dat0 (F := Ideal) V c).after 5 t) = _
  rw [after0_5]
  unfold out0_5
  rw [View.canon_unit_zero zerosA]
  simp only [View.ld_unit_zero (S := S2000x128) zerosA, View.ld_unit_zero (S := S128x256) zerosA,
    View.ld_unit_zero (S := S1x256) zerosA]
  obtain ⟨-, -, -, -, -, -, -, -, -, -, e0, e1⟩ := idxA t
  refine funext fun (j : S2000x256.Idx) => ?_
  have hr : ((((cfg0.win 5).blk t).view.emb j) 0).val = t.val * 2000 + (j 0).val := by
    show win0_5.index t (0 : Fin 2) * 2000 + 1 * (j 0).val = t.val * 2000 + (j 0).val
    omega
  have hq : (((cfg0.win 5).blk t).view.emb j) 1 = j 1 := Fin.ext (by
    show win0_5.index t (1 : Fin 2) * 256 + 1 * (j 1).val = (j 1).val
    omega)
  show Gen.k0_pay1 (F := Ideal) (iblk0 V c 0 t) (iblk0 V c 1 t) (iblk0 V c 2 t) (iblk0 V c 3 t) (iblk0 V c 4 t) j
    = max (Cert.Sage.pre (n := 50000) (ci := 128) (co := 256) (V c main_v22) (V c main_arg0) (V c main_arg2)
        (V c main_arg3) (V c main_v23) ((((cfg0.win 5).blk t).view.emb j) 0) ((((cfg0.win 5).blk t).view.emb j) 1))
      (Ideal.ofBits .f32 0x00000000#32)
  rw [payA_at, hq, preA_blocks V c t (j 0) (j 1) _ hr]

/-- An index of the output array is in point `t`'s block iff each coordinate is in the block's range on its axis. -/
theorem memA (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v24).slice (win0_5.rect t)).set ↔ _
  rw [View.set_slice_whole, Rect.mem_set_unit]
  exact Iff.rfl

/-- Row `r` of the output lies in the block of point `r / 2000`, which is written back: the 25 blocks of 2000 rows
    fill the 50000 rows. -/
theorem coverA (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 2000 < cfg0.N := by show (i 0).val / 2000 < 25; omega
  obtain ⟨-, -, -, -, -, -, -, -, -, -, e0, e1⟩ := idxA ⟨(i 0).val / 2000, ht⟩
  have e0' : win0_5.index ⟨(i 0).val / 2000, ht⟩ (0 : Fin 2) = (i 0).val / 2000 := e0
  refine ⟨⟨(i 0).val / 2000, ht⟩, flush0_5 _, ?_⟩
  rw [memA]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    omega
  | ⟨1, _⟩ =>
    show win0_5.index ⟨(i 0).val / 2000, ht⟩ (1 : Fin 2) * 256 ≤ (i 1).val
      ∧ (i 1).val < win0_5.index ⟨(i 0).val / 2000, ht⟩ (1 : Fin 2) * 256 + 256
    omega

/-- THE FIRST LAYER'S ARRAY after the region: the clipped pre-activation of the five arrays the region finds,
    at every node and channel. -/
theorem region0_array (c : Dev nD) :
    (Gen.dat0 (F := Ideal) V c).arrAt 5 cfg0.N
      = Cert.Sage.hidden (n := 50000) (ci := 128) (co := 256) (V c main_v22) (V c main_arg0) (V c main_arg2)
          (V c main_arg3) (V c main_v23) :=
  (Gen.dat0 (F := Ideal) V c).arrAt_eq_of_cover 5 _ (fun t _ => flushedA V c t) coverA

end Blocks

end Cert.KernelIdeal.Hand

end
-- ==== Proof.Region1.lean ====
/-
  The second kernel call of the program, read as mathematics: the array its output window leaves
  is the joined log-softmax of the layer's pre-activation, row by row.

  At a row `p` of a block and a channel `q` the body computes
      z p q = Σ_k a[p,k]·wl[k,q] + Σ_k x[p,k]·wr[k,q] + b[0,q]
  (two matrix products into a zero accumulator, their sum, plus the bias row repeated down the rows), then the
  row's maximum `M p`, the row's sum `S p = Σ_j exp (z p j − M p)`, and stores `z p q − (M p + log (S p))`.
  Block `t` of the 25 holds rows `2000·t … 2000·t + 1999` of the two row-blocked operands and of the result; the
  two weight matrices and the bias row are read whole at every point. So what point `t` writes back is block `t`
  of one function of the five arrays, and the 25 blocks cover the 50000 rows.
-/
import proofs.«110141_j29618094473883_1_alg».proof.Proof.Spec
import proofs.«110141_j29618094473883_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix product of a [2000,256] block with a [256,128] matrix, at an entry -/

/-- The left operand's row coordinate is the entry's row. -/
theorem lhs_second_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the contraction index. -/
theorem lhs_second_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the contraction index. -/
theorem rhs_second_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the entry's column. -/
theorem rhs_second_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Into the zero accumulator the product at row `p`, column `q` is `Σ_k l[p,k]·r[k,q]`. -/
theorem matmul_second_apply {φ₁ φ₂ : FTy} (l : FVec Ideal S2000x256 φ₁) (r : FVec Ideal S256x128 φ₂) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_second_0 _ _
    | ⟨1, _⟩ => exact (lhs_second_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-! ## The layout steps between the row reductions and the block -/

section Layout
variable {α : Type}

/-- A vector of 2000 entries cast to one column, read at (p, u), is entry `p`. -/
theorem column_cast_apply (v : S2000.Idx → α) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- One column repeated along the 128 channels, read at (p, q), is the column's entry `p`. -/
theorem column_spread_apply (w : S2000x1.Idx → α) (h : S2000x1.Broadcasts S2000x128) (p : Fin 2000) (q : Fin 128) :
    broadcastTo S2000x128 w h (ix2 p q) = w (ix2 p (0 : Fin 1)) := by
  refine broadcastTo_apply w h (ix2 p q) (ix2 p (0 : Fin 1)) fun ax => ?_
  match ax with
  | ⟨0, _⟩ =>
    show p.val = if (2000 : Nat) = 1 then 0 else p.val
    rw [if_neg (by decide)]
  | ⟨1, _⟩ => rfl

end Layout

/-! ## A row's maximum and a row's sum -/

/-- The reduced row index `p` with channel `k` put back is (p, k). -/
theorem row_lift (h : S2000x128.Reduces [1] S2000) (p : Fin 2000) (k : Fin (S2000x128.size 1)) :
    h.lift (ix1 p) k = ix2 p (⟨k.val, k.isLt⟩ : Fin 128) := by
  funext c; apply Fin.ext
  fin_cases c <;> rfl

/-- The maximum over the channels, from the word of minus infinity, at row `p`: the row's maximum. -/
theorem row_max_apply (z : FVec Ideal S2000x128 .f32) (h : S2000x128.Reduces [1] S2000) (hφ : FKind.Formats .f32)
    (hacc : (0xFF800000#32 : BitVec 32) = FKind.maximumf.neutral .f32 hφ) (p : Fin 2000) :
    multiReduction (F := Ideal) .maximumf [1] S2000 z 0xFF800000#32 h hφ hacc (ix1 p)
      = Cert.Sage.rowMax (fun j : Fin 128 => z (ix2 p j)) := by
  refine (Ideal.multiReduction_maximumf_single z 0xFF800000#32 h hφ hacc (ix1 p)).trans ?_
  have hf : (z ∘ h.lift (ix1 p)) = fun k : Fin 128 => z (ix2 p k) := funext fun k => congrArg z (row_lift h p k)
  exact congrArg (fun f => Finset.fold max (Ideal.ofBits .f32 0xFF800000#32) f (Finset.univ : Finset (Fin 128))) hf

/-- The sum over the channels at row `p`. -/
theorem row_sum_apply (y : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 y 0x00000000#32 h hφ hacc (ix1 p) = ∑ j : Fin 128, y (ix2 p j) := by
  refine (Ideal.multiReduction_add_single y 0x00000000#32 h hφ hacc (ix1 p)).trans ?_
  exact Finset.sum_congr rfl fun k _ => congrArg y (row_lift h p k)

/-! ## The body's result at an entry -/

/-- The layer before its activation, over one block of 2000 rows: the two products into zero, their sum, plus the
    bias row repeated down the rows. -/
def preBlock (x0 x1 : Vec Ideal S2000x256 .f32) (x2 x3 : Vec Ideal S256x128 .f32) (x4 : Vec Ideal S1x128 .f32) :
    FVec Ideal S2000x128 .f32 :=
  addf
    (addf
      (matmul dot_S2000x256_S256x128_S2000x128_1_0_0_1_n_n none
        (truncf .bf16 (shapeCast S2000x256 x0 shapeCasts_S2000x256_S2000x256) bitsLt_bf16_f32) (truncf .bf16 x2 bitsLt_bf16_f32)
        (constant (F := Ideal) S2000x128 .f32 0x00000000#32))
      (matmul dot_S2000x256_S256x128_S2000x128_1_0_0_1_n_n none
        (truncf .bf16 (shapeCast S2000x256 x1 shapeCasts_S2000x256_S2000x256) bitsLt_bf16_f32) (truncf .bf16 x3 bitsLt_bf16_f32)
        (constant (F := Ideal) S2000x128 .f32 0x00000000#32)))
    (broadcastTo S2000x128 (shapeCast S1x128 x4 shapeCasts_S1x128_S1x128) broadcasts_S1x128_S2000x128)

/-- At row `p` and channel `q` it is the specification's pre-activation of the five blocks. -/
theorem preBlock_apply (x0 x1 : Vec Ideal S2000x256 .f32) (x2 x3 : Vec Ideal S256x128 .f32) (x4 : Vec Ideal S1x128 .f32)
    (p : Fin 2000) (q : Fin 128) :
    preBlock x0 x1 x2 x3 x4 (ix2 p q) = Cert.Sage.pre (n := 2000) (ci := 256) (co := 128) x0 x1 x2 x3 x4 p q := by
  unfold preBlock
  rw [shapeCast_self, shapeCast_self, shapeCast_self, addf_apply, addf_apply, matmul_second_apply, matmul_second_apply,
    broadcastTo_1b_ab_apply]
  rfl

/-- The joined log-softmax of a block, as the body writes it: the entry minus (the row's maximum plus the logarithm
    of the row's sum of exponentials of the shifted entries), the two row vectors cast to columns and repeated
    along the channels. -/
def joinedBlock (z : FVec Ideal S2000x128 .f32) (h : S2000x128.Reduces [1] S2000) (hφ : FKind.Formats .f32)
    (hm : (0xFF800000#32 : BitVec 32) = FKind.maximumf.neutral .f32 hφ) (ha : (0x00000000#32 : BitVec 32) = FKind.add.neutral .f32 hφ)
    (hc : S2000.ShapeCasts S2000x1) (hb : S2000x1.Broadcasts S2000x128) : FVec Ideal S2000x128 .f32 :=
  subf z (broadcastTo S2000x128
    (addf (shapeCast S2000x1 (multiReduction (F := Ideal) .maximumf [1] S2000 z 0xFF800000#32 h hφ hm) hc)
      (log (shapeCast S2000x1
        (multiReduction (F := Ideal) .add [1] S2000
          (exp (subf z (broadcastTo S2000x128 (shapeCast S2000x1 (multiReduction (F := Ideal) .maximumf [1] S2000 z 0xFF800000#32 h hφ hm) hc) hb)))
          0x00000000#32 h hφ ha) hc))) hb)

/-- At row `p` and channel `q` it is the specification's joined log-softmax of row `p`. -/
theorem joinedBlock_apply (z : FVec Ideal S2000x128 .f32) (h : S2000x128.Reduces [1] S2000) (hφ : FKind.Formats .f32)
    (hm : (0xFF800000#32 : BitVec 32) = FKind.maximumf.neutral .f32 hφ) (ha : (0x00000000#32 : BitVec 32) = FKind.add.neutral .f32 hφ)
    (hc : S2000.ShapeCasts S2000x1) (hb : S2000x1.Broadcasts S2000x128) (p : Fin 2000) (q : Fin 128) :
    joinedBlock z h hφ hm ha hc hb (ix2 p q) = Cert.Sage.logSoftmaxJoined (fun j : Fin 128 => z (ix2 p j)) q := by
  unfold joinedBlock
  rw [subf_apply, column_spread_apply, addf_apply, column_cast_apply, row_max_apply]
  show z (ix2 p q) - (_ + Ideal.log (shapeCast S2000x1 _ hc (ix2 p (0 : Fin 1)))) = _
  rw [column_cast_apply, row_sum_apply]
  have hs : ∀ j : Fin 128,
      exp (subf z (broadcastTo S2000x128 (shapeCast S2000x1 (multiReduction (F := Ideal) .maximumf [1] S2000 z 0xFF800000#32 h hφ hm) hc) hb)) (ix2 p j)
        = Ideal.exp (z (ix2 p j) - Cert.Sage.rowMax (fun j : Fin 128 => z (ix2 p j))) := fun j => by
    show Ideal.exp (z (ix2 p j) - broadcastTo S2000x128 _ hb (ix2 p j)) = _
    rw [column_spread_apply, column_cast_apply, row_max_apply]
  rw [Finset.sum_congr rfl fun j _ => hs j]
  rfl

/-- The body's payload is the joined log-softmax of the pre-activation block. -/
theorem payload_eq (x0 x1 : Vec Ideal S2000x256 .f32) (x2 x3 : Vec Ideal S256x128 .f32) (x4 : Vec Ideal S1x128 .f32) :
    k1_pay1 (F := Ideal) x0 x1 x2 x3 x4
      = joinedBlock (preBlock x0 x1 x2 x3 x4) reduces_S2000x128_S2000 (.inl rfl) rfl rfl shapeCasts_S2000_S2000x1 broadcasts_S2000x1_S2000x128 := rfl

/-- THE BODY AT AN ENTRY: at row `p`, channel `q` of the block the body stores the joined log-softmax of the
    pre-activation's row `p`. -/
theorem payload_apply (x0 x1 : Vec Ideal S2000x256 .f32) (x2 x3 : Vec Ideal S256x128 .f32) (x4 : Vec Ideal S1x128 .f32)
    (p : Fin 2000) (q : Fin 128) :
    k1_pay1 (F := Ideal) x0 x1 x2 x3 x4 (ix2 p q)
      = Cert.Sage.logSoftmaxJoined (fun j : Fin 128 => Cert.Sage.pre (n := 2000) (ci := 256) (co := 128) x0 x1 x2 x3 x4 p j) q := by
  refine (congrFun (payload_eq x0 x1 x2 x3 x4) (ix2 p q)).trans ?_
  refine (joinedBlock_apply (preBlock x0 x1 x2 x3 x4) _ _ _ _ _ _ p q).trans ?_
  exact congrArg (fun f => Cert.Sage.logSoftmaxJoined f q) (funext fun j => preBlock_apply x0 x1 x2 x3 x4 p j)

/-! ## From the blocks to the array -/

section Array
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 25 points: the two row-blocked operands and the result are at row block
    `t`, column block 0; the two weight matrices and the bias row at block (0, 0). -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of a block's result is the entry of the whole-array function under it: the body at row `j 0` reads
    row `j 0` of the two row blocks, which are row `i 0` of the two arrays, and the weights and the bias whole. -/
theorem block_entry (x0 x1 : Vec Ideal S2000x256 .f32) (x2 x3 : Vec Ideal S256x128 .f32) (x4 : Vec Ideal S1x128 .f32)
    (A X : Cert.Sage.Mat 50000 256) (WL WR : Cert.Sage.Mat 256 128) (B : Cert.Sage.Mat 1 128)
    (j : S2000x128.Idx) (i : S50000x128.Idx) (hi : (i 1).val = (j 1).val)
    (h0 : ∀ k : Fin 256, x0 (ix2 (j 0) k) = A (ix2 (i 0) k)) (h1 : ∀ k : Fin 256, x1 (ix2 (j 0) k) = X (ix2 (i 0) k))
    (h2 : x2 = WL) (h3 : x3 = WR) (h4 : x4 = B) :
    k1_pay1 (F := Ideal) x0 x1 x2 x3 x4 j = Cert.Sage.outJoined (n := 50000) (ci := 256) (co := 128) A X WL WR B i := by
  obtain ⟨p, q, rfl⟩ : ∃ (p : Fin 2000) (q : Fin 128), j = ix2 p q := ⟨j 0, j 1, eq_ix2 j⟩
  subst h2 h3 h4
  refine (payload_apply x0 x1 x2 x3 x4 p q).trans ?_
  have hq : i 1 = q := Fin.ext hi
  unfold Cert.Sage.outJoined
  rw [hq]
  refine congrArg (fun f => Cert.Sage.logSoftmaxJoined f q) (funext fun c => ?_)
  unfold Cert.Sage.pre
  rw [Finset.sum_congr rfl fun k _ => congrArg (· * x2 (ix2 k c)) (h0 k),
    Finset.sum_congr rfl fun k _ => congrArg (· * x3 (ix2 k c)) (h1 k)]

/-- WHAT POINT `t` WRITES BACK is block `t` of the joined log-softmax of the five arrays as the region finds them. -/
theorem written_back (c : Dev nD) (t : Fin cfg1.N) :
    (dat1 (F := Ideal) V c).flushed 5 t = ((cfg1.win 5).blk t).view.read (Elt Ideal)
      (Cert.Sage.outJoined (n := 50000) (ci := 256) (co := 128) (V c main_v43) (V c main_v24) (V c main_arg5) (V c main_arg6) (V c main_v44)) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S256x128) zero_offsets,
    View.ld_unit_zero (S := S1x128) zero_offsets]
  obtain ⟨e00, e01, e10, e11, e20, e21, e30, e31, e40, e41, e50, e51⟩ := block_indices t
  funext j
  show k1_pay1 (F := Ideal) (iblk1 V c 0 t) (iblk1 V c 1 t) (iblk1 V c 2 t) (iblk1 V c 3 t) (iblk1 V c 4 t) j
    = Cert.Sage.outJoined (n := 50000) (ci := 256) (co := 128) (V c main_v43) (V c main_v24) (V c main_arg5) (V c main_arg6) (V c main_v44)
        (((cfg1.win 5).blk t).view.emb j)
  refine block_entry (iblk1 V c 0 t) (iblk1 V c 1 t) (iblk1 V c 2 t) (iblk1 V c 3 t) (iblk1 V c 4 t) _ _ _ _ _ j _ ?_ ?_ ?_ ?_ ?_ ?_
  · show win1_5.index t (1 : Fin 2) * 128 + 1 * (j 1).val = (j 1).val
    omega
  · intro k
    show V c main_v43 (((cfg1.win 0).blk t).view.emb (ix2 (j 0) k)) = V c main_v43 (ix2 ((((cfg1.win 5).blk t).view.emb j) 0) k)
    refine congrArg (V c main_v43) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  · intro k
    show V c main_v24 (((cfg1.win 1).blk t).view.emb (ix2 (j 0) k)) = V c main_v24 (ix2 ((((cfg1.win 5).blk t).view.emb j) 0) k)
    refine congrArg (V c main_v24) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 256 + 1 * (y 0).val = (y 0).val; omega
    | ⟨1, _⟩ => show win1_2.index t (1 : Fin 2) * 128 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  · funext y
    show V c main_v44 (((cfg1.win 4).blk t).view.emb y) = V c main_v44 y
    refine congrArg (V c main_v44) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega

/-- An index of the array is in point `t`'s block iff each coordinate is in the block's range on its axis. -/
theorem in_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Row `r` of the array is in the block of point `r / 2000`: the 25 blocks of 2000 rows cover the 50000 rows. -/
theorem rows_covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, e50, e51⟩ := block_indices t
  refine ⟨t, flush1_5 t, ?_⟩
  rw [in_block]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- THE ARRAY after the second kernel call: the joined log-softmax of the layer's pre-activation over the five arrays
    as the region finds them. -/
theorem region1_array (c : Dev nD) :
    (dat1 (F := Ideal) V c).arrAt 5 cfg1.N
      = Cert.Sage.outJoined (n := 50000) (ci := 256) (co := 128) (V c main_v43) (V c main_v24) (V c main_arg5) (V c main_arg6) (V c main_v44) :=
  (dat1 (F := Ideal) V c).arrAt_eq_of_cover 5
    (Cert.Sage.outJoined (n := 50000) (ci := 256) (co := 128) (V c main_v43) (V c main_v24) (V c main_arg5) (V c main_arg6) (V c main_v44))
    (fun t _ => written_back V c t) rows_covered

end Array

end Cert.KernelIdeal.Hand

end
-- ==== Proof.KernelValue.lean ====
/-
  The kernel program's result array, as one function of the argument arrays: the second region's output over the
  first region's, each region's input the mean of the neighbours' rows of the array before it.
-/
import proofs.«110141_j29618094473883_1_alg».proof.Proof.KernelHost
import proofs.«110141_j29618094473883_1_alg».proof.Proof.Region0
import proofs.«110141_j29618094473883_1_alg».proof.Proof.Region1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first layer's result: the clipped linear part over the neighbour means of the input rows. -/
def hiddenArray (c : Dev nD) : (⟨S50000x256, .f32⟩ : BufTy).Contents (Elt Ideal) :=
  Cert.Sage.hidden (n := 50000) (ci := 128) (co := 256)
    (neighbourMean128 (m ((c : Thread nD τ).loc main_arg0)) (srcVec (m ((c : Thread nD τ).loc main_arg1))) (dstVec (m ((c : Thread nD τ).loc main_arg1))))
    (m ((c : Thread nD τ).loc main_arg0)) (m ((c : Thread nD τ).loc main_arg2)) (m ((c : Thread nD τ).loc main_arg3))
    (shapeCast _ (m ((c : Thread nD τ).loc main_arg4)) shapeCasts_S256_S1x256)

/-- The second layer's result in the kernel's association of the log-softmax. -/
def resultArray (c : Dev nD) : (⟨S50000x128, .f32⟩ : BufTy).Contents (Elt Ideal) :=
  Cert.Sage.outJoined (n := 50000) (ci := 256) (co := 128)
    (neighbourMean256 (hiddenArray m c) (srcVec (m ((c : Thread nD τ).loc main_arg1))) (dstVec (m ((c : Thread nD τ).loc main_arg1))))
    (hiddenArray m c) (m ((c : Thread nD τ).loc main_arg5)) (m ((c : Thread nD τ).loc main_arg6))
    (shapeCast _ (m ((c : Thread nD τ).loc main_arg7)) shapeCasts_S128_S1x128)

/-- Region 0 leaves the first layer's result in its output array. -/
theorem hidden_value (c : Dev nD) : W2 m ρ c (Proc.devRef .tc main_v24) = hiddenArray m c := by
  refine (W2_arr m ρ c 5).trans ((region0_array (V1 m ρ) c).trans ?_)
  rw [entry0_mean, entry0_arg0, entry0_arg2, entry0_arg3, entry0_bias]
  rfl

/-- Region 1 leaves the second layer's result in its output array, the program's result buffer. -/
theorem result_value (c : Dev nD) : W4 m ρ c (Proc.devRef .tc main_v45) = resultArray m c := by
  refine (W4_arr m ρ c 5).trans ((region1_array (V3 m ρ) c).trans ?_)
  rw [entry1_mean, entry1_hidden, entry1_arg5, entry1_arg6, entry1_bias, hidden_value]
  rfl

end Cert.KernelIdeal.Hand

end
-- ==== Proof.RefSpec.lean ====
/-
  The reference program's host operations, grouped into the functions of whole arrays they compute: the mean of the
  neighbours' rows (the same chain of gather, scatter-add and division as in the kernel's program, over this
  program's own dimension records), a layer's linear part (two matrix products and a broadcast bias row), the clip
  at zero, and the row-wise log-softmax as jax prints it (the row maximum folded from minus infinity and joined once
  more with it, the shifted row, its exponentials' sum, the logarithm, the difference).
-/
import proofs.«110141_j29618094473883_1_alg».proof.Proof.Gen.ReferenceIdeal

noncomputable section

namespace Cert.ReferenceIdeal.Hand

open Cert.ReferenceIdeal Cert.ReferenceIdeal.Gen
open Idealize.ShloMosaic

variable {F : FTy → Type} [FloatOps F]

/-- The edges' source nodes: row 0 of the edge list as a flat vector. -/
def srcVec (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' target nodes: row 1 of the edge list as a flat vector. -/
def dstVec (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The sources as a column of start indices, a negative one wrapped by the node count. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The targets as a column of scatter indices. -/
def dstCol (d : (⟨S800000, .i32⟩ : BufTy).Contents (Elt F)) : (⟨S800000x1, .i32⟩ : BufTy).Contents (Elt F) :=
  broadcastInDim S800000x1 ![0] bcast_S800000_S800000x1_0 d

/-- Every node's in-degree, clipped below at one. -/
def degree (d : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstCol d)
      (broadcastInDim S800000 ![] bcast_S_S800000 (constant S_ .f32 0x3F800000#32)))
    (broadcastInDim S50000 ![] bcast_S_S50000 (constant S_ .f32 0x3F800000#32))

/-- The mean of the neighbours' rows of a 128-wide feature array. -/
def neighbourMean128 (x : (⟨S50000x128, .f32⟩ : BufTy).Contents (Elt F)) (s d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32)) (dstCol d)
      (Host.gather gather_S50000x128_S800000x1_S800000x128_1_0_n_n_0_1_1128 x (srcCol s)))
    (broadcastInDim S50000x128 ![0, 1] bcast_S50000x1_S50000x128_0_1
      (broadcastInDim S50000x1 ![0] bcast_S50000_S50000x1_0 (degree d)))

/-- The mean of the neighbours' rows of a 256-wide feature array. -/
def neighbourMean256 (x : (⟨S50000x256, .f32⟩ : BufTy).Contents (Elt F)) (s d : (⟨S800000, .i32⟩ : BufTy).Contents (Elt F)) :
    (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32)) (dstCol d)
      (Host.gather gather_S50000x256_S800000x1_S800000x256_1_0_n_n_0_1_1256 x (srcCol s)))
    (broadcastInDim S50000x256 ![0, 1] bcast_S50000x1_S50000x256_0_1
      (broadcastInDim S50000x1 ![0] bcast_S50000_S50000x1_0 (degree d)))

/-- The first layer's linear part: neighbour means times `wl`, plus own rows times `wr`, plus the bias row. -/
def linear1 (a x : (⟨S50000x128, .f32⟩ : BufTy).Contents (Elt F)) (wl wr : (⟨S128x256, .f32⟩ : BufTy).Contents (Elt F))
    (b : (⟨S256, .f32⟩ : BufTy).Contents (Elt F)) : (⟨S50000x256, .f32⟩ : BufTy).Contents (Elt F) :=
  addf
    (addf (Host.dotGeneral dot_S50000x128_S128x256_S50000x256_1_0_0_1_n_n none a wl)
      (Host.dotGeneral dot_S50000x128_S128x256_S50000x256_1_0_0_1_n_n none x wr))
    (broadcastInDim S50000x256 ![0, 1] bcast_S1x256_S50000x256_0_1 (broadcastInDim S1x256 ![1] bcast_S256_S1x256_1 b))

/-- The clip at zero. -/
def clip0 (z : (⟨S50000x256, .f32⟩ : BufTy).Contents (Elt F)) : (⟨S50000x256, .f32⟩ : BufTy).Contents (Elt F) :=
  maximumf z (broadcastInDim S50000x256 ![] bcast_S_S50000x256 (constant S_ .f32 0x00000000#32))

/-- The second layer's linear part. -/
def linear2 (a x : (⟨S50000x256, .f32⟩ : BufTy).Contents (Elt F)) (wl wr : (⟨S256x128, .f32⟩ : BufTy).Contents (Elt F))
    (b : (⟨S128, .f32⟩ : BufTy).Contents (Elt F)) : (⟨S50000x128, .f32⟩ : BufTy).Contents (Elt F) :=
  addf
    (addf (Host.dotGeneral dot_S50000x256_S256x128_S50000x128_1_0_0_1_n_n none a wl)
      (Host.dotGeneral dot_S50000x256_S256x128_S50000x128_1_0_0_1_n_n none x wr))
    (broadcastInDim S50000x128 ![0, 1] bcast_S1x128_S50000x128_0_1 (broadcastInDim S1x128 ![1] bcast_S128_S1x128_1 b))

/-- The rows' maxima: the fold from minus infinity, joined once more with minus infinity. -/
def rowMaxHost (z : (⟨S50000x128, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf z (constant S_ .f32 0xFF800000#32) reducesTo_S50000x128_S50000_d1 h_S_)

/-- The rows shifted by their maxima. -/
def shiftedHost (z : (⟨S50000x128, .f32⟩ : BufTy).Contents (Elt F)) : (⟨S50000x128, .f32⟩ : BufTy).Contents (Elt F) :=
  subf z (broadcastInDim S50000x128 ![0, 1] bcast_S50000x1_S50000x128_0_1
    (broadcastInDim S50000x1 ![0] bcast_S50000_S50000x1_0 (rowMaxHost z)))

/-- The row-wise log-softmax: the shifted row minus the logarithm of the sum of its exponentials. -/
def logSoftmaxHost (z : (⟨S50000x128, .f32⟩ : BufTy).Contents (Elt F)) : (⟨S50000x128, .f32⟩ : BufTy).Contents (Elt F) :=
  subf (shiftedHost z)
    (broadcastInDim S50000x128 ![0, 1] bcast_S50000x1_S50000x128_0_1
      (Host.log (broadcastInDim S50000x1 ![0] bcast_S50000_S50000x1_0
        (Host.reduceAdd (Host.exp (shiftedHost z)) (constant S_ .f32 0x00000000#32) reducesTo_S50000x128_S50000_d1 h_S_))))

end Cert.ReferenceIdeal.Hand

end
-- ==== Proof.RefStages.lean ====
/-
  The reference program's run, read in three stretches: the first layer (through the clip at zero), the second
  layer's linear part, the log-softmax. Each stretch is read over ARBITRARY buffer contents at its entry, so that what
  an earlier stretch computed enters the next one as a name and not as its term: read in one piece the result's term
  holds the second layer's input several times over, each copy holding the first layer's.
-/
import proofs.«110141_j29618094473883_1_alg».proof.Proof.RefRun
import proofs.«110141_j29618094473883_1_alg».proof.Proof.RefSpec
import Idealize.ShloMosaic.Lib.Pipeline.Frame

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first 38 operations: the neighbour means of the inputs' rows, the first layer's linear part, the clip at zero. -/
abbrev opsLayer1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg2 main_v23 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_arg0 main_arg3 main_v24 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    binary main_v23 main_v24 main_v25 (addf : (⟨S50000x256, .f32⟩ : BufTy).Contents (Elt F) → (⟨S50000x256, .f32⟩ : BufTy).Contents (Elt F) → (⟨S50000x256, .f32⟩ : BufTy).Contents (Elt F)),
    unary main_arg4 main_v26 (broadcastInDim S1x256 ![1] bcast_S256_S1x256_1 : (⟨S256, .f32⟩ : BufTy).Contents (Elt F) → (⟨S1x256, .f32⟩ : BufTy).Contents (Elt F)),
    unary main_v26 main_v27 (broadcastInDim S50000x256 ![0, 1] bcast_S1x256_S50000x256_0_1 : (⟨S1x256, .f32⟩ : BufTy).Contents (Elt F) → (⟨S50000x256, .f32⟩ : BufTy).Contents (Elt F)),
    binary main_v25 main_v27 main_v28 (addf : (⟨S50000x256, .f32⟩ : BufTy).Contents (Elt F) → (⟨S50000x256, .f32⟩ : BufTy).Contents (Elt F) → (⟨S50000x256, .f32⟩ : BufTy).Contents (Elt F)),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v28 main_call0_v0 main_v29 ((maximumf) : (⟨S50000x256, .f32⟩ : BufTy).Contents (Elt F) → (⟨S50000x256, .f32⟩ : BufTy).Contents (Elt F) → (⟨S50000x256, .f32⟩ : BufTy).Contents (Elt F)) ]

/-- The next 35 operations: the neighbour means of the hidden rows, the second layer's linear part. -/
abbrev opsLayer2 : List (HloOp τ sig (Elt F)) :=
  [ unary main_arg1 main_v30 ((extractStridedSlice S1x800000 ![0, 0] · slices_S2x800000_S1x800000_0_0) : (⟨S2x800000, .i32⟩ : BufTy).Contents (Elt F) → (⟨S1x800000, .i32⟩ : BufTy).Contents (Elt F)),
    reshape main_v30 main_v31 rfl shapeCasts_S1x800000_S800000,
    unary main_arg1 main_v32 ((extractStridedSlice S1x800000 ![1, 0] · slices_S2x800000_S1x800000_1_0) : (⟨S2x800000, .i32⟩ : BufTy).Contents (Elt F) → (⟨S1x800000, .i32⟩ : BufTy).Contents (Elt F)),
    reshape main_v32 main_v33 rfl shapeCasts_S1x800000_S800000,
    nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_v31 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_v31 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v31 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v29 main_v39 main_v40 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v41 (broadcastInDim S50000x256 ![] bcast_S_S50000x256 : (⟨S_, .f32⟩ : BufTy).Contents (Elt F) → (⟨S50000x256, .f32⟩ : BufTy).Contents (Elt F)),
    unary main_v33 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_7 (constant S_ .f32 0x3F800000#32),
    unary main_cst_7 main_v44 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v45 (broadcastInDim S50000 ![] bcast_S_S50000 : (⟨S_, .f32⟩ : BufTy).Contents (Elt F) → (⟨S50000, .f32⟩ : BufTy).Contents (Elt F)),
    unary main_v33 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v48 (broadcastInDim S50000 ![] bcast_S_S50000 : (⟨S_, .f32⟩ : BufTy).Contents (Elt F) → (⟨S50000, .f32⟩ : BufTy).Contents (Elt F)),
    binary main_v47 main_v48 main_v49 (maximumf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x256 ![0, 1] bcast_S50000x1_S50000x256_0_1 : (⟨S50000x1, .f32⟩ : BufTy).Contents (Elt F) → (⟨S50000x256, .f32⟩ : BufTy).Contents (Elt F)),
    binary main_v43 main_v51 main_v52 (Host.divf : (⟨S50000x256, .f32⟩ : BufTy).Contents (Elt F) → (⟨S50000x256, .f32⟩ : BufTy).Contents (Elt F) → (⟨S50000x256, .f32⟩ : BufTy).Contents (Elt F)),
    binary main_v52 main_arg5 main_v53 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v29 main_arg6 main_v54 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v53 main_v54 main_v55 (addf : (⟨S50000x128, .f32⟩ : BufTy).Contents (Elt F) → (⟨S50000x128, .f32⟩ : BufTy).Contents (Elt F) → (⟨S50000x128, .f32⟩ : BufTy).Contents (Elt F)),
    unary main_arg7 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v55 main_v57 main_v58 (addf : (⟨S50000x128, .f32⟩ : BufTy).Contents (Elt F) → (⟨S50000x128, .f32⟩ : BufTy).Contents (Elt F) → (⟨S50000x128, .f32⟩ : BufTy).Contents (Elt F)) ]

/-- The last 15 operations: the row-wise log-softmax. -/
abbrev opsSoftmax : List (HloOp τ sig (Elt F)) :=
  [ nullary main_call1_cst (constant S_ .f32 0xFF800000#32),
    binary main_v58 main_call1_cst main_call1_v0 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)),
    nullary main_call1_cst_0 (constant S_ .f32 0xFF800000#32),
    unary main_call1_cst_0 main_call1_v1 (broadcastInDim S50000 ![] bcast_S_S50000 : (⟨S_, .f32⟩ : BufTy).Contents (Elt F) → (⟨S50000, .f32⟩ : BufTy).Contents (Elt F)),
    binary main_call1_v1 main_call1_v0 main_call1_v2 ((maximumf) : (⟨S50000, .f32⟩ : BufTy).Contents (Elt F) → (⟨S50000, .f32⟩ : BufTy).Contents (Elt F) → (⟨S50000, .f32⟩ : BufTy).Contents (Elt F)),
    unary main_call1_v2 main_call1_v3 (broadcastInDim S50000x1 ![0] bcast_S50000_S50000x1_0 : (⟨S50000, .f32⟩ : BufTy).Contents (Elt F) → (⟨S50000x1, .f32⟩ : BufTy).Contents (Elt F)),
    unary main_call1_v3 main_call1_v4 (broadcastInDim S50000x128 ![0, 1] bcast_S50000x1_S50000x128_0_1 : (⟨S50000x1, .f32⟩ : BufTy).Contents (Elt F) → (⟨S50000x128, .f32⟩ : BufTy).Contents (Elt F)),
    binary main_v58 main_call1_v4 main_call1_v5 ((subf) : (⟨S50000x128, .f32⟩ : BufTy).Contents (Elt F) → (⟨S50000x128, .f32⟩ : BufTy).Contents (Elt F) → (⟨S50000x128, .f32⟩ : BufTy).Contents (Elt F)),
    unary main_call1_v5 main_call1_v6 (Host.exp : (⟨S50000x128, .f32⟩ : BufTy).Contents (Elt F) → (⟨S50000x128, .f32⟩ : BufTy).Contents (Elt F)),
    nullary main_call1_cst_1 (constant S_ .f32 0x00000000#32),
    binary main_call1_v6 main_call1_cst_1 main_call1_v7 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_call1_v7 main_call1_v8 (broadcastInDim S50000x1 ![0] bcast_S50000_S50000x1_0 : (⟨S50000, .f32⟩ : BufTy).Contents (Elt F) → (⟨S50000x1, .f32⟩ : BufTy).Contents (Elt F)),
    unary main_call1_v8 main_call1_v9 (Host.log : (⟨S50000x1, .f32⟩ : BufTy).Contents (Elt F) → (⟨S50000x1, .f32⟩ : BufTy).Contents (Elt F)),
    unary main_call1_v9 main_call1_v10 (broadcastInDim S50000x128 ![0, 1] bcast_S50000x1_S50000x128_0_1 : (⟨S50000x1, .f32⟩ : BufTy).Contents (Elt F) → (⟨S50000x128, .f32⟩ : BufTy).Contents (Elt F)),
    binary main_call1_v5 main_call1_v10 main_v59 ((subf) : (⟨S50000x128, .f32⟩ : BufTy).Contents (Elt F) → (⟨S50000x128, .f32⟩ : BufTy).Contents (Elt F) → (⟨S50000x128, .f32⟩ : BufTy).Contents (Elt F)) ]

/-- The last stretch with its row-maximum operation as the outlined function writes it, over typed references. -/
abbrev opsSoftmaxTyped : List (HloOp τ sig (Elt F)) :=
  [ nullary main_call1_cst (constant S_ .f32 0xFF800000#32),
    TRef.binary (TRef.of (T := ⟨S50000x128, .f32⟩) main_v58) (TRef.of (T := ⟨S_, .f32⟩) main_call1_cst) (TRef.of (T := ⟨S50000, .f32⟩) main_call1_v0) (fun x v => Host.reduce FloatOps.maximumf x v reducesTo_S50000x128_S50000_d1 h_S_),
    nullary main_call1_cst_0 (constant S_ .f32 0xFF800000#32),
    unary main_call1_cst_0 main_call1_v1 (broadcastInDim S50000 ![] bcast_S_S50000 : (⟨S_, .f32⟩ : BufTy).Contents (Elt F) → (⟨S50000, .f32⟩ : BufTy).Contents (Elt F)),
    binary main_call1_v1 main_call1_v0 main_call1_v2 ((maximumf) : (⟨S50000, .f32⟩ : BufTy).Contents (Elt F) → (⟨S50000, .f32⟩ : BufTy).Contents (Elt F) → (⟨S50000, .f32⟩ : BufTy).Contents (Elt F)),
    unary main_call1_v2 main_call1_v3 (broadcastInDim S50000x1 ![0] bcast_S50000_S50000x1_0 : (⟨S50000, .f32⟩ : BufTy).Contents (Elt F) → (⟨S50000x1, .f32⟩ : BufTy).Contents (Elt F)),
    unary main_call1_v3 main_call1_v4 (broadcastInDim S50000x128 ![0, 1] bcast_S50000x1_S50000x128_0_1 : (⟨S50000x1, .f32⟩ : BufTy).Contents (Elt F) → (⟨S50000x128, .f32⟩ : BufTy).Contents (Elt F)),
    binary main_v58 main_call1_v4 main_call1_v5 ((subf) : (⟨S50000x128, .f32⟩ : BufTy).Contents (Elt F) → (⟨S50000x128, .f32⟩ : BufTy).Contents (Elt F) → (⟨S50000x128, .f32⟩ : BufTy).Contents (Elt F)),
    unary main_call1_v5 main_call1_v6 (Host.exp : (⟨S50000x128, .f32⟩ : BufTy).Contents (Elt F) → (⟨S50000x128, .f32⟩ : BufTy).Contents (Elt F)),
    nullary main_call1_cst_1 (constant S_ .f32 0x00000000#32),
    binary main_call1_v6 main_call1_cst_1 main_call1_v7 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_call1_v7 main_call1_v8 (broadcastInDim S50000x1 ![0] bcast_S50000_S50000x1_0 : (⟨S50000, .f32⟩ : BufTy).Contents (Elt F) → (⟨S50000x1, .f32⟩ : BufTy).Contents (Elt F)),
    unary main_call1_v8 main_call1_v9 (Host.log : (⟨S50000x1, .f32⟩ : BufTy).Contents (Elt F) → (⟨S50000x1, .f32⟩ : BufTy).Contents (Elt F)),
    unary main_call1_v9 main_call1_v10 (broadcastInDim S50000x128 ![0, 1] bcast_S50000x1_S50000x128_0_1 : (⟨S50000x1, .f32⟩ : BufTy).Contents (Elt F) → (⟨S50000x128, .f32⟩ : BufTy).Contents (Elt F)),
    binary main_call1_v5 main_call1_v10 main_v59 ((subf) : (⟨S50000x128, .f32⟩ : BufTy).Contents (Elt F) → (⟨S50000x128, .f32⟩ : BufTy).Contents (Elt F) → (⟨S50000x128, .f32⟩ : BufTy).Contents (Elt F)) ]

/-- An outlined function's two-operand operation over typed references whose types are the buffers' own is the plain
    operation: the transport along a reflexive type equation is the identity. -/
theorem binary_plain (a b y : Ref sig .tc) (oa : a.space ≠ .host) (ua : a.isScoped = false) (ob : b.space ≠ .host)
    (ub : b.isScoped = false) (oy : y.space ≠ .host) (uy : y.isScoped = false)
    (f : a.ty.Contents (Elt F) → b.ty.Contents (Elt F) → y.ty.Contents (Elt F)) :
    TRef.binary (τ := τ) (⟨a, rfl, oa, ua⟩ : TRef sig a.ty) (⟨b, rfl, ob, ub⟩ : TRef sig b.ty) (⟨y, rfl, oy, uy⟩ : TRef sig y.ty) f
      = StableHlo.binary a b y f (TRef.dev ⟨a, rfl, oa, ua⟩) (TRef.dev ⟨b, rfl, ob, ub⟩) (TRef.dev ⟨y, rfl, oy, uy⟩) := rfl

/-- The row-maximum operation of the log-softmax is the plain two-operand operation at its buffers. -/
theorem rowMaxOp_plain : (TRef.binary (TRef.of (T := ⟨S50000x128, .f32⟩) main_v58) (TRef.of (T := ⟨S_, .f32⟩) main_call1_cst) (TRef.of (T := ⟨S50000, .f32⟩) main_call1_v0) (fun x v => Host.reduce FloatOps.maximumf x v reducesTo_S50000x128_S50000_d1 h_S_) : HloOp τ sig (Elt F)) = binary main_v58 main_call1_cst main_call1_v0 ((fun x v => Host.reduce FloatOps.maximumf x v reducesTo_S50000x128_S50000_d1 h_S_) : (⟨S50000x128, .f32⟩ : BufTy).Contents (Elt F) → (⟨S_, .f32⟩ : BufTy).Contents (Elt F) → (⟨S50000, .f32⟩ : BufTy).Contents (Elt F)) :=
  binary_plain main_v58 main_call1_cst main_call1_v0 (by decide) rfl (by decide) rfl (by decide) rfl _

theorem softmaxTyped_eq : (opsSoftmaxTyped : List (HloOp τ sig (Elt F))) = opsSoftmax := by
  simp only [opsSoftmaxTyped, opsSoftmax, rowMaxOp_plain]

set_option maxHeartbeats 4000000 in
/-- The program's operation list is the three stretches in order (an outlined function's operations written over the
    buffers themselves: the transport along a buffer's type is the identity). -/
theorem ops_split : (RunP.ops : List (HloOp τ sig (Elt F))) = opsLayer1 ++ (opsLayer2 ++ opsSoftmax) :=
  (show (RunP.ops : List (HloOp τ sig (Elt F))) = opsLayer1 ++ (opsLayer2 ++ opsSoftmaxTyped) from rfl).trans
    (congrArg (fun l => opsLayer1 ++ (opsLayer2 ++ l)) softmaxTyped_eq)

/-! ## Each stretch over arbitrary entry contents -/

theorem stage_softmax (W : Valuation τ sig (Elt F)) :
    after opsSoftmax W (Proc.devRef .tc main_v59) = logSoftmaxHost (W (Proc.devRef .tc main_v58)) := by
  after_results_simp
  rfl

theorem stage_layer2 (W : Valuation τ sig (Elt F)) :
    after opsLayer2 W (Proc.devRef .tc main_v58)
      = linear2 (neighbourMean256 (W (Proc.devRef .tc main_v29)) (srcVec (W (Proc.devRef .tc main_arg1))) (dstVec (W (Proc.devRef .tc main_arg1))))
          (W (Proc.devRef .tc main_v29)) (W (Proc.devRef .tc main_arg5)) (W (Proc.devRef .tc main_arg6)) (W (Proc.devRef .tc main_arg7)) := by
  after_results_simp
  rfl

theorem stage_layer1 (V : Valuation τ sig (Elt F)) :
    after opsLayer1 V (Proc.devRef .tc main_v29)
      = clip0 (linear1 (neighbourMean128 (V (Proc.devRef .tc main_arg0)) (srcVec (V (Proc.devRef .tc main_arg1))) (dstVec (V (Proc.devRef .tc main_arg1))))
          (V (Proc.devRef .tc main_arg0)) (V (Proc.devRef .tc main_arg2)) (V (Proc.devRef .tc main_arg3)) (V (Proc.devRef .tc main_arg4))) := by
  after_results_simp
  rfl

/-- The first stretch writes none of the buffers the second reads beside its own result. -/
theorem kept1 (V : Valuation τ sig (Elt F)) :
    after opsLayer1 V (Proc.devRef .tc main_arg1) = V (Proc.devRef .tc main_arg1)
    ∧ after opsLayer1 V (Proc.devRef .tc main_arg5) = V (Proc.devRef .tc main_arg5)
    ∧ after opsLayer1 V (Proc.devRef .tc main_arg6) = V (Proc.devRef .tc main_arg6)
    ∧ after opsLayer1 V (Proc.devRef .tc main_arg7) = V (Proc.devRef .tc main_arg7) := by
  refine ⟨?_, ?_, ?_, ?_⟩ <;> after_results_simp

/-! ## The result -/

/-- The result buffer after the whole list: the log-softmax of the second layer's linear part of the clipped first
    layer, each layer over the means of its input's neighbour rows. -/
theorem result_eq (V : Valuation τ sig (Elt F)) :
    after RunP.ops V (Proc.devRef .tc main_v59)
      = logSoftmaxHost (linear2
          (neighbourMean256
            (clip0 (linear1 (neighbourMean128 (V (Proc.devRef .tc main_arg0)) (srcVec (V (Proc.devRef .tc main_arg1))) (dstVec (V (Proc.devRef .tc main_arg1))))
              (V (Proc.devRef .tc main_arg0)) (V (Proc.devRef .tc main_arg2)) (V (Proc.devRef .tc main_arg3)) (V (Proc.devRef .tc main_arg4))))
            (srcVec (V (Proc.devRef .tc main_arg1))) (dstVec (V (Proc.devRef .tc main_arg1))))
          (clip0 (linear1 (neighbourMean128 (V (Proc.devRef .tc main_arg0)) (srcVec (V (Proc.devRef .tc main_arg1))) (dstVec (V (Proc.devRef .tc main_arg1))))
              (V (Proc.devRef .tc main_arg0)) (V (Proc.devRef .tc main_arg2)) (V (Proc.devRef .tc main_arg3)) (V (Proc.devRef .tc main_arg4))))
          (V (Proc.devRef .tc main_arg5)) (V (Proc.devRef .tc main_arg6)) (V (Proc.devRef .tc main_arg7))) := by
  obtain ⟨k1, k5, k6, k7⟩ := kept1 V
  rw [ops_split, StableHlo.after_append, StableHlo.after_append, stage_softmax, stage_layer2, stage_layer1, k1, k5, k6, k7]

/-- No operation of a stretch writes an argument's buffer. -/
theorem args_kept1 (V : Valuation τ sig (Elt F)) :
    after opsLayer1 V (Proc.devRef .tc main_arg0) = V (Proc.devRef .tc main_arg0)
    ∧ after opsLayer1 V (Proc.devRef .tc main_arg1) = V (Proc.devRef .tc main_arg1)
    ∧ after opsLayer1 V (Proc.devRef .tc main_arg2) = V (Proc.devRef .tc main_arg2)
    ∧ after opsLayer1 V (Proc.devRef .tc main_arg3) = V (Proc.devRef .tc main_arg3)
    ∧ after opsLayer1 V (Proc.devRef .tc main_arg4) = V (Proc.devRef .tc main_arg4)
    ∧ after opsLayer1 V (Proc.devRef .tc main_arg5) = V (Proc.devRef .tc main_arg5)
    ∧ after opsLayer1 V (Proc.devRef .tc main_arg6) = V (Proc.devRef .tc main_arg6)
    ∧ after opsLayer1 V (Proc.devRef .tc main_arg7) = V (Proc.devRef .tc main_arg7) := by
  refine ⟨?_, ?_, ?_, ?_, ?_, ?_, ?_, ?_⟩ <;> after_results_simp

theorem args_kept2 (V : Valuation τ sig (Elt F)) :
    after opsLayer2 V (Proc.devRef .tc main_arg0) = V (Proc.devRef .tc main_arg0)
    ∧ after opsLayer2 V (Proc.devRef .tc main_arg1) = V (Proc.devRef .tc main_arg1)
    ∧ after opsLayer2 V (Proc.devRef .tc main_arg2) = V (Proc.devRef .tc main_arg2)
    ∧ after opsLayer2 V (Proc.devRef .tc main_arg3) = V (Proc.devRef .tc main_arg3)
    ∧ after opsLayer2 V (Proc.devRef .tc main_arg4) = V (Proc.devRef .tc main_arg4)
    ∧ after opsLayer2 V (Proc.devRef .tc main_arg5) = V (Proc.devRef .tc main_arg5)
    ∧ after opsLayer2 V (Proc.devRef .tc main_arg6) = V (Proc.devRef .tc main_arg6)
    ∧ after opsLayer2 V (Proc.devRef .tc main_arg7) = V (Proc.devRef .tc main_arg7) := by
  refine ⟨?_, ?_, ?_, ?_, ?_, ?_, ?_, ?_⟩ <;> after_results_simp

theorem args_kept3 (V : Valuation τ sig (Elt F)) :
    after opsSoftmax V (Proc.devRef .tc main_arg0) = V (Proc.devRef .tc main_arg0)
    ∧ after opsSoftmax V (Proc.devRef .tc main_arg1) = V (Proc.devRef .tc main_arg1)
    ∧ after opsSoftmax V (Proc.devRef .tc main_arg2) = V (Proc.devRef .tc main_arg2)
    ∧ after opsSoftmax V (Proc.devRef .tc main_arg3) = V (Proc.devRef .tc main_arg3)
    ∧ after opsSoftmax V (Proc.devRef .tc main_arg4) = V (Proc.devRef .tc main_arg4)
    ∧ after opsSoftmax V (Proc.devRef .tc main_arg5) = V (Proc.devRef .tc main_arg5)
    ∧ after opsSoftmax V (Proc.devRef .tc main_arg6) = V (Proc.devRef .tc main_arg6)
    ∧ after opsSoftmax V (Proc.devRef .tc main_arg7) = V (Proc.devRef .tc main_arg7) := by
  refine ⟨?_, ?_, ?_, ?_, ?_, ?_, ?_, ?_⟩ <;> after_results_simp

/-- No operation writes an argument's buffer. -/
theorem args_kept (V : Valuation τ sig (Elt F)) :
    after RunP.ops V (Proc.devRef .tc main_arg0) = V (Proc.devRef .tc main_arg0)
    ∧ after RunP.ops V (Proc.devRef .tc main_arg1) = V (Proc.devRef .tc main_arg1)
    ∧ after RunP.ops V (Proc.devRef .tc main_arg2) = V (Proc.devRef .tc main_arg2)
    ∧ after RunP.ops V (Proc.devRef .tc main_arg3) = V (Proc.devRef .tc main_arg3)
    ∧ after RunP.ops V (Proc.devRef .tc main_arg4) = V (Proc.devRef .tc main_arg4)
    ∧ after RunP.ops V (Proc.devRef .tc main_arg5) = V (Proc.devRef .tc main_arg5)
    ∧ after RunP.ops V (Proc.devRef .tc main_arg6) = V (Proc.devRef .tc main_arg6)
    ∧ after RunP.ops V (Proc.devRef .tc main_arg7) = V (Proc.devRef .tc main_arg7) := by
  obtain ⟨a0, a1, a2, a3, a4, a5, a6, a7⟩ := args_kept1 V
  obtain ⟨b0, b1, b2, b3, b4, b5, b6, b7⟩ := args_kept2 (after opsLayer1 V)
  obtain ⟨c0, c1, c2, c3, c4, c5, c6, c7⟩ := args_kept3 (after opsLayer2 (after opsLayer1 V))
  rw [ops_split, StableHlo.after_append, StableHlo.after_append]
  exact ⟨c0.trans (b0.trans a0), c1.trans (b1.trans a1), c2.trans (b2.trans a2), c3.trans (b3.trans a3),
    c4.trans (b4.trans a4), c5.trans (b5.trans a5), c6.trans (b6.trans a6), c7.trans (b7.trans a7)⟩

end Cert.ReferenceIdeal.Hand

end
-- ==== Proof.RefIndex.lean ====
/-
  The reference's functions of whole arrays, read index by index on the extended reals.

  A layer's linear part at node `p` and channel `q` is  Σ_k a[p,k]·wl[k,q] + Σ_k x[p,k]·wr[k,q] + b[q]  (each matrix
  product the sum over its one shared axis; the bias vector spread first to a row, then over the rows); the clip is
  the maximum with the zero word; the row maximum is the fold of `max` over the row from the word of minus infinity
  (joining that word in once more changes nothing: it is already below the fold); the shifted row, the sum of its
  exponentials from the zero word, the logarithm and the last difference are read entry by entry. Together they are
  `Cert.Sage.hidden`, `Cert.Sage.pre` and `Cert.Sage.outShifted`.
-/
import proofs.«110141_j29618094473883_1_alg».proof.Proof.Spec
import proofs.«110141_j29618094473883_1_alg».proof.Proof.RefSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Hand

open Cert.ReferenceIdeal Cert.ReferenceIdeal.Gen Idealize.ShloMosaic
open Idealize.ShloMosaic.ValueIdx
open scoped BigOperators

/-! ## The two matrix products -/

/-- The contraction's output row is the left operand's row. -/
theorem dotA_lhs_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide),
    dif_pos (show (0 : Fin S50000x128.rank) ∈ dot_S50000x128_S128x256_S50000x256_1_0_0_1_n_n.lhsNonContracting by decide)]
  rfl

/-- The left operand's column is the summation position. -/
theorem dotA_lhs_1 (i : S50000x256.Idx) (q : dot_S50000x128_S128x256_S50000x256_1_0_0_1_n_n.contr.Idx) :
    (dot_S50000x128_S128x256_S50000x256_1_0_0_1_n_n.lhsIdx i q 1).val = (q ⟨0, by decide⟩).val :=
  dot_S50000x128_S128x256_S50000x256_1_0_0_1_n_n.lhsIdx_val_of_single rfl i q

/-- The right operand's row is the summation position. -/
theorem dotA_rhs_0 (i : S50000x256.Idx) (q : dot_S50000x128_S128x256_S50000x256_1_0_0_1_n_n.contr.Idx) :
    (dot_S50000x128_S128x256_S50000x256_1_0_0_1_n_n.rhsIdx i q 0).val = (q ⟨0, by decide⟩).val :=
  dot_S50000x128_S128x256_S50000x256_1_0_0_1_n_n.rhsIdx_val_of_single rfl i q

/-- The contraction's output column is the right operand's column. -/
theorem dotA_rhs_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide),
    dif_pos (show (1 : Fin S128x256.rank) ∈ dot_S50000x128_S128x256_S50000x256_1_0_0_1_n_n.rhsNonContracting by decide)]
  rfl

/-- The first layer's matrix product at row `p` and column `q`: the sum over the 128 shared positions. -/
theorem dotA_apply (a : FVec Ideal S50000x128 .f32) (w : FVec Ideal S128x256 .f32) (p : Fin 50000) (q : Fin 256) :
    Host.dotGeneral (F := Ideal) dot_S50000x128_S128x256_S50000x256_1_0_0_1_n_n none a w (ix2 p q) = ∑ k : Fin 128, a (ix2 p k) * w (ix2 k q) := by
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx (ix2 p q) ((ValueIdx.contrEquiv1 dot_S50000x128_S128x256_S50000x256_1_0_0_1_n_n 128 rfl rfl).symm k) = ix2 p k :=
    funext fun d => Fin.ext (by
      match d with
      | ⟨0, _⟩ => exact dotA_lhs_0 _ _
      | ⟨1, _⟩ => exact (dotA_lhs_1 _ _).trans hk)
  have er : dot_S50000x128_S128x256_S50000x256_1_0_0_1_n_n.rhsIdx (ix2 p q) ((ValueIdx.contrEquiv1 dot_S50000x128_S128x256_S50000x256_1_0_0_1_n_n 128 rfl rfl).symm k) = ix2 k q :=
    funext fun d => Fin.ext (by
      match d with
      | ⟨0, _⟩ => exact (dotA_rhs_0 _ _).trans hk
      | ⟨1, _⟩ => exact dotA_rhs_1 _ _)
  rw [el, er]

/-- The contraction's output row is the left operand's row. -/
theorem dotB_lhs_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl

/-- The left operand's column is the summation position. -/
theorem dotB_lhs_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q

/-- The right operand's row is the summation position. -/
theorem dotB_rhs_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q

/-- The contraction's output column is the right operand's column. -/
theorem dotB_rhs_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The second layer's matrix product at row `p` and column `q`: the sum over the 256 shared positions. -/
theorem dotB_apply (a : FVec Ideal S50000x256 .f32) (w : FVec Ideal S256x128 .f32) (p : Fin 50000) (q : Fin 128) :
    Host.dotGeneral (F := Ideal) dot_S50000x256_S256x128_S50000x128_1_0_0_1_n_n none a w (ix2 p q) = ∑ k : Fin 256, a (ix2 p k) * w (ix2 k q) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx (ix2 p q) ((ValueIdx.contrEquiv1 dot_S50000x256_S256x128_S50000x128_1_0_0_1_n_n 256 rfl rfl).symm k) = ix2 p k :=
    funext fun d => Fin.ext (by
      match d with
      | ⟨0, _⟩ => exact dotB_lhs_0 _ _
      | ⟨1, _⟩ => exact (dotB_lhs_1 _ _).trans hk)
  have er : dot_S50000x256_S256x128_S50000x128_1_0_0_1_n_n.rhsIdx (ix2 p q) ((ValueIdx.contrEquiv1 dot_S50000x256_S256x128_S50000x128_1_0_0_1_n_n 256 rfl rfl).symm k) = ix2 k q :=
    funext fun d => Fin.ext (by
      match d with
      | ⟨0, _⟩ => exact (dotB_rhs_0 _ _).trans hk
      | ⟨1, _⟩ => exact dotB_rhs_1 _ _)
  rw [el, er]

/-! ## The bias vector spread to a row and over the rows -/

/-- The first layer's bias, spread, reads the vector's entry of the column. -/
theorem biasH1_apply (b : FVec Ideal S256 .f32) (p : Fin 50000) (q : Fin 256) :
    broadcastInDim S50000x256 ![0, 1] bcast_S1x256_S50000x256_0_1 (broadcastInDim S1x256 ![1] bcast_S256_S1x256_1 b) (ix2 p q)
      = b (ix1 q) :=
  (broadcastInDim_apply ![0, 1] bcast_S1x256_S50000x256_0_1 _ (ix2 p q) (ix2 (0 : Fin 1) q) (fun a => match a with
    | ⟨0, _⟩ => by show (0 : Nat) = if (1 : Nat) = 1 then 0 else p.val; rw [if_pos rfl]
    | ⟨1, _⟩ => by show q.val = if (256 : Nat) = 1 then 0 else q.val; rw [if_neg (by decide)])).trans
  (broadcastInDim_apply ![1] bcast_S256_S1x256_1 b (ix2 (0 : Fin 1) q) (ix1 q) (fun a => match a with
    | ⟨0, _⟩ => by show q.val = if (256 : Nat) = 1 then 0 else q.val; rw [if_neg (by decide)]))

/-- The second layer's bias, spread, reads the vector's entry of the column. -/
theorem biasH2_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) :=
  (broadcastInDim_apply ![0, 1] bcast_S1x128_S50000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])).trans
  (broadcastInDim_apply ![1] bcast_S128_S1x128_1 b (ix2 (0 : Fin 1) q) (ix1 q) (fun a => match a with
    | ⟨0, _⟩ => by show q.val = if (128 : Nat) = 1 then 0 else q.val; rw [if_neg (by decide)]))

/-! ## The two layers' linear parts, and the clip -/

/-- The first layer's linear part at node `p`, channel `q` is the layer's pre-activation there. -/
theorem linear1_at (a x : (⟨S50000x128, .f32⟩ : BufTy).Contents (Elt Ideal)) (wl wr : (⟨S128x256, .f32⟩ : BufTy).Contents (Elt Ideal))
    (b : (⟨S256, .f32⟩ : BufTy).Contents (Elt Ideal)) (p : Fin 50000) (q : Fin 256) :
    linear1 a x wl wr b (ix2 p q)
      = Cert.Sage.pre (n := 50000) (ci := 128) (co := 256) a x wl wr (fun i => b (ValueIdx.ix1 (i 1))) p q := by
  unfold linear1 Cert.Sage.pre
  rw [addf_apply, addf_apply, dotA_apply, dotA_apply, biasH1_apply]

/-- The clipped first layer at node `p`, channel `q`. -/
theorem clip0_linear1_at (a x : (⟨S50000x128, .f32⟩ : BufTy).Contents (Elt Ideal)) (wl wr : (⟨S128x256, .f32⟩ : BufTy).Contents (Elt Ideal))
    (b : (⟨S256, .f32⟩ : BufTy).Contents (Elt Ideal)) (p : Fin 50000) (q : Fin 256) :
    clip0 (linear1 a x wl wr b) (ix2 p q)
      = max (Cert.Sage.pre (n := 50000) (ci := 128) (co := 256) a x wl wr (fun i => b (ValueIdx.ix1 (i 1))) p q)
          (Ideal.ofBits .f32 0x00000000#32) := by
  unfold clip0
  rw [maximumf_apply, linear1_at]
  rfl

/-- The clipped first layer is `Cert.Sage.hidden`. -/
theorem clip0_linear1_eq (a x : (⟨S50000x128, .f32⟩ : BufTy).Contents (Elt Ideal)) (wl wr : (⟨S128x256, .f32⟩ : BufTy).Contents (Elt Ideal))
    (b : (⟨S256, .f32⟩ : BufTy).Contents (Elt Ideal)) :
    clip0 (linear1 a x wl wr b)
      = Cert.Sage.hidden (n := 50000) (ci := 128) (co := 256) a x wl wr (fun i => b (ValueIdx.ix1 (i 1))) :=
  funext fun (i : S50000x256.Idx) =>
    (congrArg (clip0 (linear1 a x wl wr b)) (eq_ix2 i)).trans (clip0_linear1_at a x wl wr b (i 0) (i 1))

/-- The second layer's linear part at node `p`, channel `q` is the layer's pre-activation there. -/
theorem linear2_at (a x : (⟨S50000x256, .f32⟩ : BufTy).Contents (Elt Ideal)) (wl wr : (⟨S256x128, .f32⟩ : BufTy).Contents (Elt Ideal))
    (b : (⟨S128, .f32⟩ : BufTy).Contents (Elt Ideal)) (p : Fin 50000) (q : Fin 128) :
    linear2 a x wl wr b (ix2 p q)
      = Cert.Sage.pre (n := 50000) (ci := 256) (co := 128) a x wl wr (fun i => b (ValueIdx.ix1 (i 1))) p q := by
  unfold linear2 Cert.Sage.pre
  rw [addf_apply, addf_apply, dotB_apply, dotB_apply, biasH2_apply]

/-- The same at any index. -/
theorem linear2_apply (a x : (⟨S50000x256, .f32⟩ : BufTy).Contents (Elt Ideal)) (wl wr : (⟨S256x128, .f32⟩ : BufTy).Contents (Elt Ideal))
    (b : (⟨S128, .f32⟩ : BufTy).Contents (Elt Ideal)) (i : S50000x128.Idx) :
    linear2 a x wl wr b i
      = Cert.Sage.pre (n := 50000) (ci := 256) (co := 128) a x wl wr (fun i => b (ValueIdx.ix1 (i 1))) (i 0) (i 1) :=
  (congrArg (linear2 a x wl wr b) (eq_ix2 i)).trans (linear2_at a x wl wr b (i 0) (i 1))

/-! ## The row-wise log-softmax -/

/-- The host's exponential at an index is the exponential of the entry. -/
theorem hostExp_apply {s : Shape} {φ : FTy} (y : FVec Ideal s φ) (i : s.Idx) : Host.exp (F := Ideal) y i = Ideal.exp (y i) := rfl

/-- The host's logarithm at an index is the logarithm of the entry. -/
theorem hostLog_apply {s : Shape} {φ : FTy} (y : FVec Ideal s φ) (i : s.Idx) : Host.log (F := Ideal) y i = Ideal.log (y i) := rfl

/-- A row statistic spread to a column reads the statistic of the row. -/
theorem colH_apply (v : FVec Ideal S50000 .f32) (p : Fin 50000) (r : Fin 1) :
    broadcastInDim S50000x1 ![0] bcast_S50000_S50000x1_0 v (ix2 p r) = v (ix1 p) :=
  broadcastInDim_apply ![0] bcast_S50000_S50000x1_0 v (ix2 p r) (ix1 p) (fun a => match a with
    | ⟨0, _⟩ => by show p.val = if (50000 : Nat) = 1 then 0 else p.val; rw [if_neg (by decide)])

/-- A column spread over the 128 channels reads the column's entry of the row. -/
theorem rowH_apply (y : FVec Ideal S50000x1 .f32) (p : Fin 50000) (q : Fin 128) :
    broadcastInDim S50000x128 ![0, 1] bcast_S50000x1_S50000x128_0_1 y (ix2 p q) = y (ix2 p (0 : Fin 1)) :=
  broadcastInDim_apply ![0, 1] bcast_S50000x1_S50000x128_0_1 y (ix2 p q) (ix2 p (0 : Fin 1)) (fun a => match a with
    | ⟨0, _⟩ => by show p.val = if (50000 : Nat) = 1 then 0 else p.val; rw [if_neg (by decide)]
    | ⟨1, _⟩ => by show (0 : Nat) = if (1 : Nat) = 1 then 0 else q.val; rw [if_pos rfl])

/-- The reduced index `p` with channel `k` put back is (p, k). -/
theorem liftH (h : S50000x128.Reduces [1] S50000) (p : Fin 50000) (k : Fin 128) :
    h.lift (ix1 p) k = ix2 p k := by
  funext c; apply Fin.ext
  match c with
  | ⟨0, _⟩ => rfl
  | ⟨1, _⟩ => rfl

/-- The rows' maxima as the reference takes them are `Cert.Sage.rowMax` of the rows: the fold from the word of minus
    infinity is already above that word, so joining it in once more changes nothing. -/
theorem rowMaxHost_apply (z : FVec Ideal S50000x128 .f32) (p : Fin 50000) :
    rowMaxHost (F := Ideal) z (ix1 p) = Cert.Sage.rowMax (fun k : Fin 128 => z (ix2 p k)) := by
  have h : S50000x128.Reduces [1] S50000 := by decide
  have e : Host.reduce (FloatOps.maximumf (F := Ideal) (φ := .f32)) z (constant (F := Ideal) S_ .f32 0xFF800000#32)
        reducesTo_S50000x128_S50000_d1 h_S_ (ix1 p)
      = Finset.univ.fold max (Ideal.ofBits .f32 0xFF800000#32) (fun k : Fin 128 => z (ix2 p k)) := by
    rw [Host.reduce_eq_fold_single (FloatOps.maximumf (F := Ideal) (φ := .f32)) z _ reducesTo_S50000x128_S50000_d1 h h_S_]
    exact congrArg (fun f => (Finset.univ : Finset (Fin 128)).fold max (Ideal.ofBits .f32 0xFF800000#32) f)
      (funext fun k => congrArg z (liftH h p k))
  unfold rowMaxHost Cert.Sage.rowMax
  rw [maximumf_apply, e]
  exact max_eq_right ((Finset.le_fold_max _).mpr (Or.inl le_rfl))

/-- The shifted rows, entry by entry. -/
theorem shiftedHost_apply (z : FVec Ideal S50000x128 .f32) (p : Fin 50000) (q : Fin 128) :
    shiftedHost (F := Ideal) z (ix2 p q) = z (ix2 p q) - Cert.Sage.rowMax (fun k : Fin 128 => z (ix2 p k)) := by
  unfold shiftedHost
  rw [subf_apply, rowH_apply, colH_apply, rowMaxHost_apply]

/-- The sum of a shifted row's exponentials, from the zero word. -/
theorem expSumHost_apply (z : FVec Ideal S50000x128 .f32) (p : Fin 50000) :
    Host.reduceAdd (F := Ideal) (Host.exp (shiftedHost (F := Ideal) z)) (constant (F := Ideal) S_ .f32 0x00000000#32)
        reducesTo_S50000x128_S50000_d1 h_S_ (ix1 p)
      = Cert.Sage.rowExpSum (fun k : Fin 128 => z (ix2 p k)) := by
  have h : S50000x128.Reduces [1] S50000 := by decide
  unfold Host.reduceAdd Cert.Sage.rowExpSum
  rw [Ideal.hostReduceAdd_def, Ideal.hostReduceAdd_single reducesTo_S50000x128_S50000_d1 h]
  show Ideal.ofBits .f32 0x00000000#32 + (∑ k : Fin 128, Host.exp (shiftedHost (F := Ideal) z) (h.lift (ix1 p) k)) = _
  rw [Ideal.ofBits_zero_f32, zero_add]
  refine Finset.sum_congr rfl fun k _ => ?_
  rw [liftH h p k, hostExp_apply, shiftedHost_apply]

/-- The logarithm of that sum, as the column the reference spreads. -/
theorem logSumHost_apply (z : FVec Ideal S50000x128 .f32) (p : Fin 50000) (r : Fin 1) :
    Host.log (F := Ideal) (broadcastInDim S50000x1 ![0] bcast_S50000_S50000x1_0
        (Host.reduceAdd (F := Ideal) (Host.exp (shiftedHost (F := Ideal) z)) (constant (F := Ideal) S_ .f32 0x00000000#32)
          reducesTo_S50000x128_S50000_d1 h_S_)) (ix2 p r)
      = Ideal.log (Cert.Sage.rowExpSum (fun k : Fin 128 => z (ix2 p k))) := by
  rw [hostLog_apply, colH_apply, expSumHost_apply]

/-- The reference's log-softmax at row `p`, channel `q`. -/
theorem logSoftmaxHost_at (z : FVec Ideal S50000x128 .f32) (p : Fin 50000) (q : Fin 128) :
    logSoftmaxHost (F := Ideal) z (ix2 p q) = Cert.Sage.logSoftmaxShifted (fun k : Fin 128 => z (ix2 p k)) q := by
  unfold logSoftmaxHost Cert.Sage.logSoftmaxShifted
  rw [subf_apply, shiftedHost_apply, rowH_apply, logSumHost_apply]

/-- The reference's log-softmax is `Cert.Sage.logSoftmaxShifted` of each row. -/
theorem logSoftmaxHost_eq (z : (⟨S50000x128, .f32⟩ : BufTy).Contents (Elt Ideal)) :
    logSoftmaxHost z = fun i => Cert.Sage.logSoftmaxShifted (fun j : Fin 128 => z (ValueIdx.ix2 (i 0) j)) (i 1) :=
  funext fun i => (congrArg (logSoftmaxHost z) (eq_ix2 i)).trans (logSoftmaxHost_at z (i 0) (i 1))

/-- The reference's second layer is `Cert.Sage.outShifted`. -/
theorem out_eq (a x : (⟨S50000x256, .f32⟩ : BufTy).Contents (Elt Ideal)) (wl wr : (⟨S256x128, .f32⟩ : BufTy).Contents (Elt Ideal))
    (b : (⟨S128, .f32⟩ : BufTy).Contents (Elt Ideal)) :
    logSoftmaxHost (linear2 a x wl wr b)
      = Cert.Sage.outShifted (n := 50000) (ci := 256) (co := 128) a x wl wr (fun i => b (ValueIdx.ix1 (i 1))) := by
  rw [logSoftmaxHost_eq]
  funext i
  unfold Cert.Sage.outShifted
  exact congrArg (fun f : Fin 128 → EReal => Cert.Sage.logSoftmaxShifted f (i 1))
    (funext fun j => linear2_at a x wl wr b (i 0) j)

end Cert.ReferenceIdeal.Hand

end
-- ==== Proof.RealMath.lean ====
/-
  Realness on the extended reals.

  An extended real is *real* when it is neither of the two infinities. Sums, products and maxima of reals are real; so
  is a quotient by a real number that is at least one. The maximum of a nonempty finite row of reals is real, and
  with a real maximum M the two ways of writing log-softmax,  z − (M + log S)  and  (z − M) − log S,  are the same
  extended real: negation distributes over  M + l  when M is finite, and addition is associative.

  The last part carries realness through the array operations that only move or add entries: a gather and a broadcast
  read entries of their operand, a scatter-add adds to an entry a finite sum of update entries, and a splat of the
  zero word or of the word of one is a real constant.
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Data.Finset.Fold
import Mathlib.Algebra.BigOperators.Group.Finset.Basic
import proofs.«110141_j29618094473883_1_alg».proof.Proof.Spec

noncomputable section

open scoped BigOperators

namespace Cert.Sage

open Idealize.ShloMosaic Idealize.ShloMosaic.ValueIdx

/-! ## Real extended reals -/

/-- An extended real that is a real number: neither plus nor minus infinity. -/
def IsReal (x : EReal) : Prop := ∃ r : ℝ, x = (r : EReal)

theorem isReal_coe (r : ℝ) : IsReal (r : EReal) := ⟨r, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Being real is being different from both infinities. -/
theorem isReal_iff {x : EReal} : IsReal x ↔ x ≠ ⊥ ∧ x ≠ ⊤ := by
  constructor
  · intro h; exact ⟨h.ne_bot, h.ne_top⟩
  · rintro ⟨hb, ht⟩
    induction x with
    | bot => exact absurd rfl hb
    | top => exact absurd rfl ht
    | coe r => exact ⟨r, rfl⟩

theorem isReal_zero : IsReal (0 : EReal) := ⟨0, rfl⟩

theorem isReal_one : IsReal (1 : EReal) := ⟨1, rfl⟩

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- The larger of two reals is one of them. -/
theorem IsReal.max {a b : EReal} (ha : IsReal a) (hb : IsReal b) : IsReal (Max.max a b) := by
  rcases le_total a b with h | h
  · rw [max_eq_right h]; exact hb
  · rw [max_eq_left h]; exact ha

/-- A finite sum of reals is real: zero is real and the sum of two reals is. -/
theorem IsReal.sum {ι : Type*} (s : Finset ι) (f : ι → EReal) (h : ∀ i ∈ s, IsReal (f i)) :
    IsReal (∑ i ∈ s, f i) :=
  Finset.sum_induction f IsReal (fun _ _ ha hb => ha.add hb) isReal_zero h

/-! ## The three words the programs write -/

/-- The zero word is the real number zero. -/
theorem isReal_zero_word : IsReal (Ideal.ofBits .f32 0x00000000#32) := by
  rw [Ideal.ofBits_zero_f32]; exact isReal_zero

/-- The word with sign one, all exponent bits set and no fraction bit is minus infinity. -/
theorem ofBits_negInf : Ideal.ofBits .f32 0xFF800000#32 = ⊥ := by
  simp [Ideal.ofBits, Ideal.ieee]

/-- The word with exponent field 127 and no fraction bit is 2^23 · 2^(127 − 127 − 23) = 1. -/
theorem ofBits_one : Ideal.ofBits .f32 0x3F800000#32 = ((1 : ℝ) : EReal) := by
  simp [Ideal.ofBits, Ideal.ieee]
  rw [← EReal.coe_mul, ← EReal.coe_one]
  congr 1
  norm_num

/-- The word of one is real. -/
theorem isReal_one_word : IsReal (Ideal.ofBits .f32 0x3F800000#32) := by
  rw [ofBits_one]; exact isReal_coe 1

/-! ## A quotient by a real that is at least one -/

/-- The quotient of a real by the larger of a real and one is real: the divisor is a real number that is at least
    one, hence not zero, so the quotient is the product with its (real) inverse. -/
theorem IsReal.div_max_one {a c : EReal} (ha : IsReal a) (hc : IsReal c) :
    IsReal (Ideal.div a (Max.max c (Ideal.ofBits .f32 0x3F800000#32))) := by
  obtain ⟨t, ht⟩ := hc.max isReal_one_word
  have hge : ((1 : ℝ) : EReal) ≤ (t : EReal) := by
    rw [← ht, ← ofBits_one]; exact le_max_right _ _
  have ht1 : (1 : ℝ) ≤ t := EReal.coe_le_coe_iff.mp hge
  have ht0 : t ≠ 0 := by linarith
  rw [ht, Ideal.div, if_neg (by exact_mod_cast ht0), ← EReal.coe_inv]
  exact ha.mul (isReal_coe _)

/-! ## The maximum of a row -/

/-- The maximum of a nonempty finite row of reals, folded from minus infinity, is real: it is below plus infinity
    because minus infinity and every entry are, and above minus infinity because the first entry is. -/
theorem rowMax_isReal {co : Nat} (hco : 0 < co) (z : Fin co → EReal) (hz : ∀ j, IsReal (z j)) :
    IsReal (rowMax z) := by
  unfold rowMax
  rw [ofBits_negInf, isReal_iff]
  constructor
  · apply ne_of_gt
    rw [Finset.lt_fold_max]
    exact Or.inr ⟨⟨0, hco⟩, Finset.mem_univ _, bot_lt_iff_ne_bot.mpr (hz _).ne_bot⟩
  · apply ne_of_lt
    rw [Finset.fold_max_lt]
    exact ⟨bot_lt_top, fun j _ => lt_top_iff_ne_top.mpr (hz j).ne_top⟩

/-! ## The two associations of log-softmax -/

/-- Subtracting a sum whose first term is real is subtracting the terms one after the other: with m finite,
    −(m + l) = −m − l whatever l is, and addition on the extended reals is associative. -/
theorem sub_add_eq_sub_sub_of_real {a m l : EReal} (hm : IsReal m) : a - (m + l) = (a - m) - l := by
  rw [sub_eq_add_neg a (m + l), EReal.neg_add (Or.inl hm.ne_bot) (Or.inl hm.ne_top),
    sub_eq_add_neg (-m) l, ← add_assoc, ← sub_eq_add_neg a m, ← sub_eq_add_neg]

/-- On a nonempty row of reals the two ways of writing log-softmax agree. -/
theorem logSoftmax_assoc {co : Nat} (hco : 0 < co) (z : Fin co → EReal) (hz : ∀ j, IsReal (z j)) (q : Fin co) :
    logSoftmaxJoined z q = logSoftmaxShifted z q := by
  unfold logSoftmaxJoined logSoftmaxShifted
  exact sub_add_eq_sub_sub_of_real (rowMax_isReal hco z hz)

/-! ## The layers -/

/-- One layer's pre-activation on real data is real: two finite sums of products, and a bias. -/
theorem pre_isReal {n ci co : Nat} (a x : Mat n ci) (wl wr : Mat ci co) (b : Mat 1 co)
    (ha : ∀ i, IsReal (a i)) (hx : ∀ i, IsReal (x i)) (hwl : ∀ i, IsReal (wl i)) (hwr : ∀ i, IsReal (wr i))
    (hb : ∀ i, IsReal (b i)) (p : Fin n) (q : Fin co) : IsReal (pre a x wl wr b p q) := by
  unfold pre
  exact ((IsReal.sum _ _ fun k _ => (ha _).mul (hwl _)).add (IsReal.sum _ _ fun k _ => (hx _).mul (hwr _))).add (hb _)

/-- The first layer's result on real data is real: the larger of a real and zero. -/
theorem hidden_isReal {n ci co : Nat} (a x : Mat n ci) (wl wr : Mat ci co) (b : Mat 1 co)
    (ha : ∀ i, IsReal (a i)) (hx : ∀ i, IsReal (x i)) (hwl : ∀ i, IsReal (wl i)) (hwr : ∀ i, IsReal (wr i))
    (hb : ∀ i, IsReal (b i)) : ∀ i, IsReal (hidden a x wl wr b i) := by
  intro i
  unfold hidden
  exact (pre_isReal a x wl wr b ha hx hwl hwr hb _ _).max isReal_zero_word

/-- On real data with at least one output channel, the second layer's result is the same in both associations. -/
theorem outJoined_eq_outShifted {n ci co : Nat} (hco : 0 < co) (a x : Mat n ci) (wl wr : Mat ci co) (b : Mat 1 co)
    (ha : ∀ i, IsReal (a i)) (hx : ∀ i, IsReal (x i)) (hwl : ∀ i, IsReal (wl i)) (hwr : ∀ i, IsReal (wr i))
    (hb : ∀ i, IsReal (b i)) : outJoined a x wl wr b = outShifted a x wl wr b := by
  funext i
  unfold outJoined outShifted
  exact logSoftmax_assoc hco _ (fun j => pre_isReal a x wl wr b ha hx hwl hwr hb (i 0) j) (i 1)

/-! ## Realness through the array operations -/

/-- Every entry of a gather is an entry of its operand. -/
theorem gather_isReal {s si t : Shape} {w : Nat} (d : GatherDims s si t) (x : s.Idx → EReal) (idx : IVec si w)
    (hx : ∀ i, IsReal (x i)) : ∀ j, IsReal (Host.gather d x idx j) :=
  fun _ => hx _

/-- A scatter-add puts at each index the operand's entry plus a finite sum of update entries. -/
theorem scatterAdd_isReal {s si u : Shape} {w : Nat} (d : ScatterDims s si u) (x : FVec Ideal s .f32) (idx : IVec si w)
    (upd : FVec Ideal u .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact (hx i).add (IsReal.sum _ _ fun j _ => hu j)

/-- Every entry of a broadcast is an entry of its operand. -/
theorem broadcastInDim_isReal {s t : Shape} (dims : Fin s.rank → Fin t.rank) (h : s.BroadcastsInDim t dims)
    (x : s.Idx → EReal) (hx : ∀ i, IsReal (x i)) : ∀ j, IsReal (broadcastInDim t dims h x j) :=
  fun _ => hx _

/-- A splat of the zero word is real everywhere. -/
theorem constant_isReal_zero (s : Shape) : ∀ i, IsReal (constant (F := Ideal) s .f32 0x00000000#32 i) := by
  intro i; rw [constant_apply]; exact isReal_zero_word

/-- A splat of the word of one is real everywhere. -/
theorem constant_isReal_one (s : Shape) : ∀ i, IsReal (constant (F := Ideal) s .f32 0x3F800000#32 i) := by
  intro i; rw [constant_apply]; exact isReal_one_word

/-! ## Further realness facts -/

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb
  exact ⟨r - s, (EReal.coe_sub r s).symm⟩

/-- The exponential of a real is the real exponential. -/
theorem IsReal.exp {a : EReal} (ha : IsReal a) : IsReal (Ideal.exp a) := by
  obtain ⟨r, rfl⟩ := ha; exact ⟨Real.exp r, rfl⟩

/-- On a nonempty row of reals the sum of the shifted exponentials is real. -/
theorem rowExpSum_isReal {co : Nat} (hco : 0 < co) (z : Fin co → EReal) (hz : ∀ j, IsReal (z j)) :
    IsReal (rowExpSum z) := by
  unfold rowExpSum
  exact IsReal.sum _ _ fun j _ => ((hz j).sub (rowMax_isReal hco z hz)).exp

/-- A contraction with a real accumulator and real operands is real: the accumulator plus a finite sum of products. -/
theorem matmul_isReal {sl sr so : Shape} (d : DotDims sl sr so) (lhs : sl.Idx → EReal) (rhs : sr.Idx → EReal)
    (acc : so.Idx → EReal) (hl : ∀ i, IsReal (lhs i)) (hr : ∀ i, IsReal (rhs i)) (hacc : ∀ j, IsReal (acc j)) :
    ∀ j, IsReal (Ideal.matmul d lhs rhs acc j) := by
  intro j
  unfold Ideal.matmul
  exact (hacc j).add (IsReal.sum _ _ fun k _ => (hl _).mul (hr _))

/-- The host's contraction of real operands is real, at every schedule key. -/
theorem dotGeneral_isReal {sl sr so : Shape} {φ₁ φ₂ : FTy} (d : DotDims sl sr so) (prec : Option ContractPrecision)
    (sched : HostSchedule) (lhs : FVec Ideal sl φ₁) (rhs : FVec Ideal sr φ₂) (hl : ∀ i, IsReal (lhs i))
    (hr : ∀ i, IsReal (rhs i)) : ∀ j, IsReal (FloatOps.dotGeneral d prec sched lhs rhs j) := by
  intro j
  rw [Ideal.dotGeneral_apply]
  exact IsReal.sum _ _ fun k _ => (hl _).mul (hr _)

end Cert.Sage

end
-- ==== Proof.FiniteInputs.lean ====
/-
  From the stated precondition to real inputs.

  The precondition says, of each of the seven float arrays x, that every entry satisfies |x| < +∞, all these
  statements and-ed into one bit. An and of bits is one exactly when each is; a reduction by and over a whole array
  is one only if every entry is one; and  max x (−x) < +∞  says that x is neither +∞ (then max x (−x) = +∞) nor
  −∞ (then −x = +∞). So every entry of every float input is a real number.
-/
import Idealize.ShloMosaic.PureOps.Ideal
import Idealize.ShloMosaic.PureOps.Ideal.Laws
import Idealize.ShloMosaic.Lib.ValueIdx
import Idealize.ShloMosaic.Lib.ReduceAll
import proofs.«110141_j29618094473883_1_alg».proof.Pre_finite_inputs
import proofs.«110141_j29618094473883_1_alg».proof.Proof.RealMath

noncomputable section

namespace Cert.Sage

open Idealize.ShloMosaic Idealize.ShloMosaic.ValueIdx

/-- A shape of rank zero has one index. -/
instance subsingleton_rank0_idx : Subsingleton (⟨0, ![]⟩ : Shape).Idx := ⟨fun _ _ => funext fun d => d.elim0⟩

/-- The word with sign zero, all exponent bits set and no fraction bit is plus infinity. -/
theorem ofBits_posInf : Ideal.ofBits .f32 0x7F800000#32 = ⊤ := by
  simp [Ideal.ofBits, Ideal.ieee]

/-- A one-bit word made from a truth value is one exactly when the value is true. -/
theorem ofBool_eq_one_iff {b : Bool} : BitVec.ofBool b = 1#1 ↔ b = true := by cases b <;> decide

/-- An extended real whose absolute value  max x (−x)  is below plus infinity is real. -/
theorem isReal_of_abs_lt_top {x : EReal} (h : max x (-x) < ⊤) : IsReal x := by
  obtain ⟨h1, h2⟩ := max_lt_iff.mp h
  rw [isReal_iff]
  refine ⟨?_, ne_of_lt h1⟩
  rintro rfl
  simp at h2

/-- If the and over a whole array of the bits "|x| < the word of plus infinity" is one, every entry of x is real. -/
theorem all_lt_inf_isReal {s t u : Shape} {axes : List (Fin s.rank)} [Subsingleton t.Idx]
    (hb : (⟨0, ![]⟩ : Shape).BroadcastsInDim s (![] : Fin 0 → Fin s.rank)) (hr : s.ReducesTo axes t) (hu : 0 < u.numel)
    (x : FVec Ideal s .f32) (init : IVec u 1) (j : t.Idx)
    (e : Host.reduce IntOp.andi
          (cmpf .olt (Host.absf x) (broadcastInDim s ![] hb (constant (F := Ideal) ⟨0, ![]⟩ .f32 0x7F800000#32))) init hr hu j
          = 1#1) :
    ∀ i, IsReal (x i) := by
  intro i
  have hi := Host.reduce_andi_all _ init hr hu j e i
  change Ideal.cmp .olt (max (x i) (-(x i))) (Ideal.ofBits .f32 0x7F800000#32) = 1#1 at hi
  rw [ofBits_posInf] at hi
  simp only [Ideal.cmp] at hi
  exact isReal_of_abs_lt_top (of_decide_eq_true (ofBool_eq_one_iff.mp hi))

open Cert.Pre_finite_inputs in
/-- Under the stated precondition every entry of every float input is real. -/
theorem inputs_real [Cert.Pre_finite_inputs.Facts] (x0 : FVec Ideal S50000x128 .f32) (x1 : IVec S2x800000 32)
    (x2 x3 : FVec Ideal S128x256 .f32) (x4 : FVec Ideal S256 .f32) (x5 x6 : FVec Ideal S256x128 .f32)
    (x7 : FVec Ideal S128 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧
      (∀ i, IsReal (x5 i)) ∧ (∀ i, IsReal (x6 i)) ∧ (∀ i, IsReal (x7 i)) := by
  have h0 := congrFun h ix0
  dsimp only [Cert.Pre_finite_inputs.fn, Cert.Pre_finite_inputs.fn_part1] at h0
  simp only [andi, IntOp.andi_eq_one] at h0
  obtain ⟨⟨⟨⟨⟨⟨e0, e2⟩, e3⟩, e4⟩, e5⟩, e6⟩, e7⟩ := h0
  exact ⟨all_lt_inf_isReal _ _ _ x0 _ _ e0, all_lt_inf_isReal _ _ _ x2 _ _ e2, all_lt_inf_isReal _ _ _ x3 _ _ e3,
    all_lt_inf_isReal _ _ _ x4 _ _ e4, all_lt_inf_isReal _ _ _ x5 _ _ e5, all_lt_inf_isReal _ _ _ x6 _ _ e6,
    all_lt_inf_isReal _ _ _ x7 _ _ e7⟩

end Cert.Sage

end
-- ==== Proof.Finite.lean ====
/-
  Realness of the shared host chain, and the two associations of the second layer on it.

  The mean of the neighbours' rows is a scatter-add (onto zeros) of gathered entries, divided entry by entry by the
  in-degree clipped below at one; the in-degree is a scatter-add of ones onto zeros. On real features every step keeps
  every entry real, and the divisor is the larger of a real number and one, hence a real number that is at least one.
  A bias vector reshaped to one row holds the same entries. With every array real, the second layer's log-softmax is
  the same in both associations.
-/
import Idealize.ShloMosaic.Lib.ValueIdx
import Idealize.ShloMosaic.Lib.ValueLayout
import proofs.«110141_j29618094473883_1_alg».proof.Proof.KernelHost
import proofs.«110141_j29618094473883_1_alg».proof.Proof.RealMath

noncomputable section

namespace Cert.KernelIdeal.Hand

open Cert.Sage
open Cert.KernelIdeal Cert.KernelIdeal.Gen
open Idealize.ShloMosaic Idealize.ShloMosaic.ValueIdx

/-! ## Over arbitrary shapes -/

/-- The larger of a real number and the word of one. -/
def GeOneReal (y : EReal) : Prop := ∃ c : EReal, IsReal c ∧ y = max c (Ideal.ofBits .f32 0x3F800000#32)

/-- A real divided by the larger of a real and one is real. -/
theorem isReal_div_geOne {a y : EReal} (ha : IsReal a) (hy : GeOneReal y) : IsReal (Ideal.div a y) := by
  obtain ⟨c, hc, rfl⟩ := hy
  exact ha.div_max_one hc

/-- Every entry of a broadcast is an entry of its operand. -/
theorem broadcastInDim_geOne {s t : Shape} (dims : Fin s.rank → Fin t.rank) (h : s.BroadcastsInDim t dims)
    (x : s.Idx → EReal) (hx : ∀ i, GeOneReal (x i)) : ∀ j, GeOneReal (broadcastInDim t dims h x j) :=
  fun _ => hx _

/-- A broadcast of a splat reads the extended real the splat's word encodes. -/
theorem broadcastInDim_constant_apply {s t : Shape} (dims : Fin s.rank → Fin t.rank) (h : s.BroadcastsInDim t dims)
    (w : BitVec FTy.f32.bits) (j : t.Idx) :
    broadcastInDim t dims h (constant (F := Ideal) s .f32 w) j = Ideal.ofBits .f32 w :=
  rfl

/-- The entrywise maximum of a real array and an array of ones. -/
theorem maximumf_one_geOne {s : Shape} (a one : FVec Ideal s .f32) (ha : ∀ i, IsReal (a i))
    (hone : ∀ i, one i = Ideal.ofBits .f32 0x3F800000#32) : ∀ i, GeOneReal (maximumf a one i) := by
  intro i
  refine ⟨a i, ha i, ?_⟩
  rw [maximumf_apply, hone i]

/-- The entrywise quotient of a real array by an array of such divisors is real. -/
theorem hostDivf_isReal {s : Shape} (a b : FVec Ideal s .f32) (ha : ∀ i, IsReal (a i)) (hb : ∀ i, GeOneReal (b i)) :
    ∀ i, IsReal (Host.divf a b i) := by
  intro i
  show IsReal (Ideal.div (a i) (b i))
  exact isReal_div_geOne (ha i) (hb i)

/-- Every entry of a reshaped array is an entry of the array. -/
theorem shapeCast_isReal {s t : Shape} (x : s.Idx → EReal) (h : s.ShapeCasts t) (hx : ∀ i, IsReal (x i)) :
    ∀ j, IsReal (shapeCast t x h j) :=
  fun _ => hx _

/-! ## The shared chain -/

/-- Every node's clipped in-degree is the larger of a real number and one. -/
theorem degree_geOne (d : (⟨S800000, .i32⟩ : BufTy).Contents (Elt Ideal)) : ∀ i, GeOneReal (degree (F := Ideal) d i) := by
  unfold degree
  exact maximumf_one_geOne _ _
    (scatterAdd_isReal _ _ _ _ (broadcastInDim_isReal _ _ _ (constant_isReal_zero _))
      (broadcastInDim_isReal _ _ _ (constant_isReal_one _)))
    (fun i => broadcastInDim_constant_apply _ _ _ i)

/-- The neighbours' mean of a real 128-wide feature array is real. -/
theorem neighbourMean128_isReal (x : (⟨S50000x128, .f32⟩ : BufTy).Contents (Elt Ideal))
    (s d : (⟨S800000, .i32⟩ : BufTy).Contents (Elt Ideal)) (hx : ∀ i, IsReal (x i)) :
    ∀ i, IsReal (neighbourMean128 (F := Ideal) x s d i) := by
  unfold neighbourMean128
  exact hostDivf_isReal _ _
    (scatterAdd_isReal _ _ _ _ (broadcastInDim_isReal _ _ _ (constant_isReal_zero _)) (gather_isReal _ _ _ hx))
    (broadcastInDim_geOne _ _ _ (broadcastInDim_geOne _ _ _ (degree_geOne d)))

/-- The neighbours' mean of a real 256-wide feature array is real. -/
theorem neighbourMean256_isReal (x : (⟨S50000x256, .f32⟩ : BufTy).Contents (Elt Ideal))
    (s d : (⟨S800000, .i32⟩ : BufTy).Contents (Elt Ideal)) (hx : ∀ i, IsReal (x i)) :
    ∀ i, IsReal (neighbourMean256 (F := Ideal) x s d i) := by
  unfold neighbourMean256
  exact hostDivf_isReal _ _
    (scatterAdd_isReal _ _ _ _ (broadcastInDim_isReal _ _ _ (constant_isReal_zero _)) (gather_isReal _ _ _ hx))
    (broadcastInDim_geOne _ _ _ (broadcastInDim_geOne _ _ _ (degree_geOne d)))

/-! ## The bias rows -/

/-- The 256-long bias reshaped to one row reads, at (0, q), the bias at q. -/
theorem biasRow256 (b : FVec Ideal S256 .f32) :
    (shapeCast _ b shapeCasts_S256_S1x256 : Cert.Sage.Mat 1 256) = fun i => b (ix1 (i 1)) := by
  funext i
  exact (congrArg (shapeCast _ b shapeCasts_S256_S1x256) (eq_ix2 i)).trans
    (shapeCast_a_1a_apply b shapeCasts_S256_S1x256 (i 0) (i 1))

/-- The 128-long bias reshaped to one row reads, at (0, q), the bias at q. -/
theorem biasRow128 (b : FVec Ideal S128 .f32) :
    (shapeCast _ b shapeCasts_S128_S1x128 : Cert.Sage.Mat 1 128) = fun i => b (ix1 (i 1)) := by
  funext i
  exact (congrArg (shapeCast _ b shapeCasts_S128_S1x128) (eq_ix2 i)).trans
    (shapeCast_a_1a_apply b shapeCasts_S128_S1x128 (i 0) (i 1))

/-! ## Both layers -/

/-- On real inputs the two layers end in the same array whichever way the log-softmax is associated. -/
theorem layers_assoc (x0 : (⟨S50000x128, .f32⟩ : BufTy).Contents (Elt Ideal))
    (s d : (⟨S800000, .i32⟩ : BufTy).Contents (Elt Ideal))
    (w2 w3 : (⟨S128x256, .f32⟩ : BufTy).Contents (Elt Ideal)) (b4 : Cert.Sage.Mat 1 256)
    (w5 w6 : (⟨S256x128, .f32⟩ : BufTy).Contents (Elt Ideal)) (b7 : Cert.Sage.Mat 1 128)
    (h0 : ∀ i, IsReal (x0 i)) (h2 : ∀ i, IsReal (w2 i)) (h3 : ∀ i, IsReal (w3 i)) (h4 : ∀ i, IsReal (b4 i))
    (h5 : ∀ i, IsReal (w5 i)) (h6 : ∀ i, IsReal (w6 i)) (h7 : ∀ i, IsReal (b7 i)) :
    outJoined (n := 50000) (ci := 256) (co := 128)
        (neighbourMean256 (F := Ideal)
          (hidden (n := 50000) (ci := 128) (co := 256) (neighbourMean128 (F := Ideal) x0 s d) x0 w2 w3 b4) s d)
        (hidden (n := 50000) (ci := 128) (co := 256) (neighbourMean128 (F := Ideal) x0 s d) x0 w2 w3 b4) w5 w6 b7
      = outShifted (n := 50000) (ci := 256) (co := 128)
        (neighbourMean256 (F := Ideal)
          (hidden (n := 50000) (ci := 128) (co := 256) (neighbourMean128 (F := Ideal) x0 s d) x0 w2 w3 b4) s d)
        (hidden (n := 50000) (ci := 128) (co := 256) (neighbourMean128 (F := Ideal) x0 s d) x0 w2 w3 b4) w5 w6 b7 := by
  have hh : ∀ i, IsReal (hidden (n := 50000) (ci := 128) (co := 256) (neighbourMean128 (F := Ideal) x0 s d) x0 w2 w3 b4 i) :=
    hidden_isReal _ _ _ _ _ (neighbourMean128_isReal x0 s d h0) h0 h2 h3 h4
  exact outJoined_eq_outShifted (by norm_num) _ _ _ _ _ (neighbourMean256_isReal _ s d hh) hh h5 h6 h7

end Cert.KernelIdeal.Hand

end
-- ==== Proof.SameChain.lean ====
/-
  The two programs share one host chain.

  Each program names its shapes, its gather and scatter dimension records and its shape facts separately, but the
  shapes are the same literals, the records have the same fields, and facts are propositions. So the chain that turns
  the edge list and a feature array into the neighbours' means is, in the reference program, the very function it is
  in the kernel's program, at every instance of the float operations.
-/
import proofs.«110141_j29618094473883_1_alg».proof.Proof.KernelHost
import proofs.«110141_j29618094473883_1_alg».proof.Proof.RefSpec

noncomputable section

namespace Cert.Sage

open Idealize.ShloMosaic

variable {F : FTy → Type} [FloatOps F]

/-! ## The dimension records -/

theorem scatter128_same :
    Cert.ReferenceIdeal.scatter_S50000x128_S800000x1_S800000x128_1_0_0_1
      = Cert.KernelIdeal.scatter_S50000x128_S800000x1_S800000x128_1_0_0_1 := rfl

theorem scatter256_same :
    Cert.ReferenceIdeal.scatter_S50000x256_S800000x1_S800000x256_1_0_0_1
      = Cert.KernelIdeal.scatter_S50000x256_S800000x1_S800000x256_1_0_0_1 := rfl

theorem scatterDeg_same :
    Cert.ReferenceIdeal.scatter_S50000_S800000x1_S800000_n_0_0_1
      = Cert.KernelIdeal.scatter_S50000_S800000x1_S800000_n_0_0_1 := rfl

theorem gather128_same :
    Cert.ReferenceIdeal.gather_S50000x128_S800000x1_S800000x128_1_0_n_n_0_1_1128
      = Cert.KernelIdeal.gather_S50000x128_S800000x1_S800000x128_1_0_n_n_0_1_1128 := rfl

theorem gather256_same :
    Cert.ReferenceIdeal.gather_S50000x256_S800000x1_S800000x256_1_0_n_n_0_1_1256
      = Cert.KernelIdeal.gather_S50000x256_S800000x1_S800000x256_1_0_n_n_0_1_1256 := rfl

/-! ## The chain, piece by piece -/

theorem srcVec_same (e : (⟨Cert.KernelIdeal.S2x800000, .i32⟩ : BufTy).Contents (Elt F)) :
    Cert.ReferenceIdeal.Hand.srcVec (F := F) e = Cert.KernelIdeal.Hand.srcVec (F := F) e := rfl

theorem dstVec_same (e : (⟨Cert.KernelIdeal.S2x800000, .i32⟩ : BufTy).Contents (Elt F)) :
    Cert.ReferenceIdeal.Hand.dstVec (F := F) e = Cert.KernelIdeal.Hand.dstVec (F := F) e := rfl

theorem srcCol_same (s : (⟨Cert.KernelIdeal.S800000, .i32⟩ : BufTy).Contents (Elt F)) :
    Cert.ReferenceIdeal.Hand.srcCol (F := F) s = Cert.KernelIdeal.Hand.srcCol (F := F) s := rfl

theorem dstCol_same (d : (⟨Cert.KernelIdeal.S800000, .i32⟩ : BufTy).Contents (Elt F)) :
    Cert.ReferenceIdeal.Hand.dstCol (F := F) d = Cert.KernelIdeal.Hand.dstCol (F := F) d := rfl

theorem degree_same (d : (⟨Cert.KernelIdeal.S800000, .i32⟩ : BufTy).Contents (Elt F)) :
    Cert.ReferenceIdeal.Hand.degree (F := F) d = Cert.KernelIdeal.Hand.degree (F := F) d := by
  unfold Cert.ReferenceIdeal.Hand.degree Cert.KernelIdeal.Hand.degree
  rw [scatterDeg_same, dstCol_same]

/-! ## The neighbours' means -/

theorem neighbourMean128_same (x : (⟨Cert.KernelIdeal.S50000x128, .f32⟩ : BufTy).Contents (Elt F))
    (s d : (⟨Cert.KernelIdeal.S800000, .i32⟩ : BufTy).Contents (Elt F)) :
    Cert.ReferenceIdeal.Hand.neighbourMean128 (F := F) x s d = Cert.KernelIdeal.Hand.neighbourMean128 (F := F) x s d := by
  unfold Cert.ReferenceIdeal.Hand.neighbourMean128 Cert.KernelIdeal.Hand.neighbourMean128
  rw [scatter128_same, gather128_same, dstCol_same, srcCol_same, degree_same]

theorem neighbourMean256_same (x : (⟨Cert.KernelIdeal.S50000x256, .f32⟩ : BufTy).Contents (Elt F))
    (s d : (⟨Cert.KernelIdeal.S800000, .i32⟩ : BufTy).Contents (Elt F)) :
    Cert.ReferenceIdeal.Hand.neighbourMean256 (F := F) x s d = Cert.KernelIdeal.Hand.neighbourMean256 (F := F) x s d := by
  unfold Cert.ReferenceIdeal.Hand.neighbourMean256 Cert.KernelIdeal.Hand.neighbourMean256
  rw [scatter256_same, gather256_same, dstCol_same, srcCol_same, degree_same]

end Cert.Sage

end
-- ==== Proof.Bridge.lean ====
/-
  The two programs' result arrays are one function of the argument arrays.

  The reference's result is the log-softmax of the second layer's linear part of the clipped first layer, each layer
  over the means of its input's neighbour rows; the kernel's is the same composition with each layer computed block by
  block and the log-softmax associated as `z − (M + log S)` instead of `(z − M) − log S`. Read index by index both
  are the specification's functions (`hidden`, `outShifted` / `outJoined`); the shared host chain is the same function
  in both programs; and the two associations agree because, the inputs being finite, every intermediate array holds real
  numbers, so each row's maximum `M` is real.
-/
import proofs.«110141_j29618094473883_1_alg».proof.Proof.KernelValue
import proofs.«110141_j29618094473883_1_alg».proof.Proof.RefIndex
import proofs.«110141_j29618094473883_1_alg».proof.Proof.FiniteInputs
import proofs.«110141_j29618094473883_1_alg».proof.Proof.Finite
import proofs.«110141_j29618094473883_1_alg».proof.Proof.SameChain

noncomputable section

namespace Cert.Proof

open Idealize.ShloMosaic Idealize.ShloMosaic.TcCoe Idealize.SL.Sem Idealize.ShloMosaic.StableHlo
open Cert.Sage

/-- The reference's composition of host functions, over arrays named by the kernel program's types, is the kernel's
    result array, when every float input is real. -/
theorem composition_eq
    (x0 : (⟨Cert.KernelIdeal.S50000x128, .f32⟩ : BufTy).Contents (Elt Ideal))
    (e : (⟨Cert.KernelIdeal.S2x800000, .i32⟩ : BufTy).Contents (Elt Ideal))
    (w2 w3 : (⟨Cert.KernelIdeal.S128x256, .f32⟩ : BufTy).Contents (Elt Ideal))
    (b4 : (⟨Cert.KernelIdeal.S256, .f32⟩ : BufTy).Contents (Elt Ideal))
    (w5 w6 : (⟨Cert.KernelIdeal.S256x128, .f32⟩ : BufTy).Contents (Elt Ideal))
    (b7 : (⟨Cert.KernelIdeal.S128, .f32⟩ : BufTy).Contents (Elt Ideal))
    (h0 : ∀ i, IsReal (x0 i)) (h2 : ∀ i, IsReal (w2 i)) (h3 : ∀ i, IsReal (w3 i)) (h4 : ∀ i, IsReal (b4 i))
    (h5 : ∀ i, IsReal (w5 i)) (h6 : ∀ i, IsReal (w6 i)) (h7 : ∀ i, IsReal (b7 i)) :
    Cert.ReferenceIdeal.Hand.logSoftmaxHost (F := Ideal) (Cert.ReferenceIdeal.Hand.linear2
        (Cert.ReferenceIdeal.Hand.neighbourMean256
          (Cert.ReferenceIdeal.Hand.clip0 (Cert.ReferenceIdeal.Hand.linear1
            (Cert.ReferenceIdeal.Hand.neighbourMean128 x0 (Cert.ReferenceIdeal.Hand.srcVec e) (Cert.ReferenceIdeal.Hand.dstVec e))
            x0 w2 w3 b4))
          (Cert.ReferenceIdeal.Hand.srcVec e) (Cert.ReferenceIdeal.Hand.dstVec e))
        (Cert.ReferenceIdeal.Hand.clip0 (Cert.ReferenceIdeal.Hand.linear1
            (Cert.ReferenceIdeal.Hand.neighbourMean128 x0 (Cert.ReferenceIdeal.Hand.srcVec e) (Cert.ReferenceIdeal.Hand.dstVec e))
            x0 w2 w3 b4))
        w5 w6 b7)
      = outJoined (n := 50000) (ci := 256) (co := 128)
          (Cert.KernelIdeal.Hand.neighbourMean256
            (hidden (n := 50000) (ci := 128) (co := 256)
              (Cert.KernelIdeal.Hand.neighbourMean128 x0 (Cert.KernelIdeal.Hand.srcVec e) (Cert.KernelIdeal.Hand.dstVec e))
              x0 w2 w3 (shapeCast _ b4 Cert.KernelIdeal.Gen.shapeCasts_S256_S1x256))
            (Cert.KernelIdeal.Hand.srcVec e) (Cert.KernelIdeal.Hand.dstVec e))
          (hidden (n := 50000) (ci := 128) (co := 256)
              (Cert.KernelIdeal.Hand.neighbourMean128 x0 (Cert.KernelIdeal.Hand.srcVec e) (Cert.KernelIdeal.Hand.dstVec e))
              x0 w2 w3 (shapeCast _ b4 Cert.KernelIdeal.Gen.shapeCasts_S256_S1x256))
          w5 w6 (shapeCast _ b7 Cert.KernelIdeal.Gen.shapeCasts_S128_S1x128) := by
  rw [Cert.ReferenceIdeal.Hand.out_eq, Cert.ReferenceIdeal.Hand.clip0_linear1_eq, srcVec_same, dstVec_same,
    neighbourMean128_same, neighbourMean256_same]
  rw [Cert.KernelIdeal.Hand.biasRow256, Cert.KernelIdeal.Hand.biasRow128]
  exact (Cert.KernelIdeal.Hand.layers_assoc x0 (Cert.KernelIdeal.Hand.srcVec e) (Cert.KernelIdeal.Hand.dstVec e) w2 w3 _ w5 w6 _
    h0 h2 h3 (fun i => h4 _) h5 h6 (fun i => h7 _)).symm

end Cert.Proof

end
-- ==== Proof.lean ====
/-
  The certificate of a two-layer mean-aggregating graph network: a kernel program of two row-blocked kernels (each a
  layer's two matrix products, bias and activation over blocks of 2000 nodes) among host stretches that build the means of
  the neighbours' rows, against the plain host program.

  Frames: the two kernel programs' are the generated frame certificates; the reference's is its run with the result
  dropped. The idealization rewrote nothing, so `preserves` is trivial. The value claim: the kernel's result array is
  `outJoined` over `hidden` over the neighbour means (the two regions' arrays read block by block, the host stretches
  read between them), the reference's is the same composition in host form; index by index both are the specification's
  functions, and the one difference — the log-softmax written `z − (M + log S)` in the kernel and `(z − M) − log S`
  in the reference — vanishes because finite inputs make every intermediate array, hence every row maximum `M`, real.
-/
import proofs.«110141_j29618094473883_1_alg».proof.Defs
import proofs.«110141_j29618094473883_1_alg».proof.Proof.Gen.Kernel
import proofs.«110141_j29618094473883_1_alg».proof.Proof.Gen.Kernel.Skeleton
import proofs.«110141_j29618094473883_1_alg».proof.Proof.Gen.Kernel.Launch
import proofs.«110141_j29618094473883_1_alg».proof.Proof.Gen.Kernel.Points
import proofs.«110141_j29618094473883_1_alg».proof.Proof.Gen.Kernel.Frame
import proofs.«110141_j29618094473883_1_alg».proof.Proof.Gen.KernelIdeal
import proofs.«110141_j29618094473883_1_alg».proof.Proof.Gen.KernelIdeal.Skeleton
import proofs.«110141_j29618094473883_1_alg».proof.Proof.Gen.KernelIdeal.Launch
import proofs.«110141_j29618094473883_1_alg».proof.Proof.Gen.KernelIdeal.Points
import proofs.«110141_j29618094473883_1_alg».proof.Proof.Gen.KernelIdeal.Frame
import proofs.«110141_j29618094473883_1_alg».proof.Proof.Gen.ReferenceIdeal
import proofs.«110141_j29618094473883_1_alg».proof.Proof.Gen.Pre_finite_inputs
import proofs.«110141_j29618094473883_1_alg».proof.Proof.KernelRun
import proofs.«110141_j29618094473883_1_alg».proof.Proof.KernelValue
import proofs.«110141_j29618094473883_1_alg».proof.Proof.RefStages
import proofs.«110141_j29618094473883_1_alg».proof.Proof.Bridge
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's run leaves every argument's buffer as launched: no operation writes one. -/
theorem frame_reference : Cert.frame_ReferenceIdeal := fun m ρ _ =>
  (θ_run Cert.ReferenceIdeal.defs _ _).mono (fun _ h c => by
      obtain ⟨a0, a1, a2, a3, a4, a5, a6, a7⟩ := Cert.ReferenceIdeal.Hand.args_kept (F := Ideal) (launchContents m c)
      exact ⟨(h c _).trans a0, (h c _).trans a1, (h c _).trans a2, (h c _).trans a3, (h c _).trans a4,
        (h c _).trans a5, (h c _).trans a6, (h c _).trans a7⟩)
    (Cert.ReferenceIdeal.RunP.run_raw (F := Ideal) m ρ)

theorem preserves : Cert.preserves_Kernel_KernelIdeal := trivial

/-- Both programs end with the kernel's result array `resultArray` of the (agreeing) arguments: the kernel by its two
    regions' arrays, the reference by its three stretches and `composition_eq`. -/
theorem algebraic : Cert.algebraic_KernelIdeal_ReferenceIdeal := by
  intro m ρ m' ρ' hpre hagree
  refine ⟨fun c => Cert.KernelIdeal.Hand.resultArray m c, ?_, ?_⟩
  · exact (θ_run Cert.KernelIdeal.defs _ _).mono
      (fun _ h c => ⟨(h c).1.trans (Cert.KernelIdeal.Hand.result_value m ρ c), (h c).2⟩)
      (Cert.KernelIdeal.GenRun.run_value (F := Ideal) m ρ)
  · refine (θ_run Cert.ReferenceIdeal.defs _ _).mono (fun _ h c => ?_)
      (Cert.ReferenceIdeal.RunP.run_raw (F := Ideal) m' ρ')
    obtain ⟨a0, a1, a2, a3, a4, a5, a6, a7⟩ := Cert.ReferenceIdeal.Hand.args_kept (F := Ideal) (launchContents m' c)
    refine ⟨(h c _).trans ?_, (h c _).trans a0, (h c _).trans a1, (h c _).trans a2, (h c _).trans a3,
      (h c _).trans a4, (h c _).trans a5, (h c _).trans a6, (h c _).trans a7⟩
    obtain ⟨e0, e1, e2, e3, e4, e5, e6, e7⟩ := hagree c
    obtain ⟨r0, r2, r3, r4, r5, r6, r7⟩ := Cert.Sage.inputs_real _ _ _ _ _ _ _ _ (hpre c)
    refine (Cert.ReferenceIdeal.Hand.result_eq (F := Ideal) (launchContents m' c)).trans ?_
    show Cert.ReferenceIdeal.Hand.logSoftmaxHost (F := Ideal) (Cert.ReferenceIdeal.Hand.linear2
        (Cert.ReferenceIdeal.Hand.neighbourMean256
          (Cert.ReferenceIdeal.Hand.clip0 (Cert.ReferenceIdeal.Hand.linear1
            (Cert.ReferenceIdeal.Hand.neighbourMean128 (m' ((c.tc : Thread Cert.ReferenceIdeal.nD Cert.ReferenceIdeal.τ).loc Cert.ReferenceIdeal.main_arg0))
              (Cert.ReferenceIdeal.Hand.srcVec (m' ((c.tc : Thread Cert.ReferenceIdeal.nD Cert.ReferenceIdeal.τ).loc Cert.ReferenceIdeal.main_arg1)))
              (Cert.ReferenceIdeal.Hand.dstVec (m' ((c.tc : Thread Cert.ReferenceIdeal.nD Cert.ReferenceIdeal.τ).loc Cert.ReferenceIdeal.main_arg1))))
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))))
          (Cert.ReferenceIdeal.Hand.srcVec (m' ((c.tc : Thread Cert.ReferenceIdeal.nD Cert.ReferenceIdeal.τ).loc Cert.ReferenceIdeal.main_arg1)))
          (Cert.ReferenceIdeal.Hand.dstVec (m' ((c.tc : Thread Cert.ReferenceIdeal.nD Cert.ReferenceIdeal.τ).loc Cert.ReferenceIdeal.main_arg1))))
        (Cert.ReferenceIdeal.Hand.clip0 (Cert.ReferenceIdeal.Hand.linear1
            (Cert.ReferenceIdeal.Hand.neighbourMean128 (m' ((c.tc : Thread Cert.ReferenceIdeal.nD Cert.ReferenceIdeal.τ).loc Cert.ReferenceIdeal.main_arg0))
              (Cert.ReferenceIdeal.Hand.srcVec (m' ((c.tc : Thread Cert.ReferenceIdeal.nD Cert.ReferenceIdeal.τ).loc Cert.ReferenceIdeal.main_arg1)))
              (Cert.ReferenceIdeal.Hand.dstVec (m' ((c.tc : Thread Cert.ReferenceIdeal.nD Cert.ReferenceIdeal.τ).loc Cert.ReferenceIdeal.main_arg1))))
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))) = _
    rw [e0, e1, e2, e3, e4, e5, e6, e7]
    exact composition_eq _ _ _ _ _ _ _ _ r0 r2 r3 r4 r5 r6 r7

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
